-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v62)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v62) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S30000x200 : Shape := ⟨2, ![30000, 200]⟩
abbrev S10000x200 : Shape := ⟨2, ![10000, 200]⟩
abbrev S230x200 : Shape := ⟨2, ![230, 200]⟩
abbrev S365x1 : Shape := ⟨2, ![365, 1]⟩
abbrev S10x200 : Shape := ⟨2, ![10, 200]⟩
abbrev S200x401 : Shape := ⟨2, ![200, 401]⟩
abbrev S200 : Shape := ⟨1, ![200]⟩
abbrev S40000x1 : Shape := ⟨2, ![40000, 1]⟩
abbrev S600000 : Shape := ⟨1, ![600000]⟩
abbrev S4096x4 : Shape := ⟨2, ![4096, 4]⟩
abbrev S_ : Shape := ⟨0, ![]⟩

class Facts : Prop where
  bcast_S_S30000x200 : S_.BroadcastsInDim S30000x200 (![] : Fin 0 → Fin S30000x200.rank)
  reducesTo_S30000x200_S_d0_1 : S30000x200.ReducesTo [0, 1] S_
  h_S_ : 0 < S_.numel
  bcast_S_S10000x200 : S_.BroadcastsInDim S10000x200 (![] : Fin 0 → Fin S10000x200.rank)
  reducesTo_S10000x200_S_d0_1 : S10000x200.ReducesTo [0, 1] S_
  bcast_S_S230x200 : S_.BroadcastsInDim S230x200 (![] : Fin 0 → Fin S230x200.rank)
  reducesTo_S230x200_S_d0_1 : S230x200.ReducesTo [0, 1] S_
  bcast_S_S365x1 : S_.BroadcastsInDim S365x1 (![] : Fin 0 → Fin S365x1.rank)
  reducesTo_S365x1_S_d0_1 : S365x1.ReducesTo [0, 1] S_
  bcast_S_S10x200 : S_.BroadcastsInDim S10x200 (![] : Fin 0 → Fin S10x200.rank)
  reducesTo_S10x200_S_d0_1 : S10x200.ReducesTo [0, 1] S_
  bcast_S_S200x401 : S_.BroadcastsInDim S200x401 (![] : Fin 0 → Fin S200x401.rank)
  reducesTo_S200x401_S_d0_1 : S200x401.ReducesTo [0, 1] S_
  bcast_S_S200 : S_.BroadcastsInDim S200 (![] : Fin 0 → Fin S200.rank)
  reducesTo_S200_S_d0 : S200.ReducesTo [0] S_
  bcast_S_S40000x1 : S_.BroadcastsInDim S40000x1 (![] : Fin 0 → Fin S40000x1.rank)
  reducesTo_S40000x1_S_d0_1 : S40000x1.ReducesTo [0, 1] S_

variable [Facts]

def fn_part2 {F : FTy → Type} [FloatOps F] (main_arg7 : FVec F S40000x1 .f32) (main_v33 : IVec S_ 1) : IVec S_ 1 :=
  let main_v34 : FVec F S40000x1 .f32 := Host.absf main_arg7
  let main_cst_12 : FVec F S_ .f32 := constant S_ .f32 0x7F800000#32
  let main_v35 : FVec F S40000x1 .f32 := broadcastInDim S40000x1 ![] bcast_S_S40000x1 main_cst_12
  let main_v36 : IVec S40000x1 1 := cmpf .olt main_v34 main_v35
  let main_c_13 : IVec S_ 1 := constantI S_ 1 1#1
  let main_v37 : IVec S_ 1 := (fun x v => Host.reduce IntOp.andi x v reducesTo_S40000x1_S_d0_1 h_S_) main_v36 main_c_13
  let main_v38 : IVec S_ 1 := andi main_v33 main_v37
  main_v38

def fn_part1 {F : FTy → Type} [FloatOps F] (main_arg4 : FVec F S10x200 .f32) (main_arg5 : FVec F S200x401 .f32) (main_arg6 : FVec F S200 .f32) (main_arg7 : FVec F S40000x1 .f32) (main_v13 : IVec S_ 1) (main_v16 : IVec S365x1 1) : IVec S_ 1 :=
  let main_c_5 : IVec S_ 1 := constantI S_ 1 1#1
  let main_v17 : IVec S_ 1 := (fun x v => Host.reduce IntOp.andi x v reducesTo_S365x1_S_d0_1 h_S_) main_v16 main_c_5
  let main_v18 : IVec S_ 1 := andi main_v13 main_v17
  let main_v19 : FVec F S10x200 .f32 := Host.absf main_arg4
  let main_cst_6 : FVec F S_ .f32 := constant S_ .f32 0x7F800000#32
  let main_v20 : FVec F S10x200 .f32 := broadcastInDim S10x200 ![] bcast_S_S10x200 main_cst_6
  let main_v21 : IVec S10x200 1 := cmpf .olt main_v19 main_v20
  let main_c_7 : IVec S_ 1 := constantI S_ 1 1#1
  let main_v22 : IVec S_ 1 := (fun x v => Host.reduce IntOp.andi x v reducesTo_S10x200_S_d0_1 h_S_) main_v21 main_c_7
  let main_v23 : IVec S_ 1 := andi main_v18 main_v22
  let main_v24 : FVec F S200x401 .f32 := Host.absf main_arg5
  let main_cst_8 : FVec F S_ .f32 := constant S_ .f32 0x7F800000#32
  let main_v25 : FVec F S200x401 .f32 := broadcastInDim S200x401 ![] bcast_S_S200x401 main_cst_8
  let main_v26 : IVec S200x401 1 := cmpf .olt main_v24 main_v25
  let main_c_9 : IVec S_ 1 := constantI S_ 1 1#1
  let main_v27 : IVec S_ 1 := (fun x v => Host.reduce IntOp.andi x v reducesTo_S200x401_S_d0_1 h_S_) main_v26 main_c_9
  let main_v28 : IVec S_ 1 := andi main_v23 main_v27
  let main_v29 : FVec F S200 .f32 := Host.absf main_arg6
  let main_cst_10 : FVec F S_ .f32 := constant S_ .f32 0x7F800000#32
  let main_v30 : FVec F S200 .f32 := broadcastInDim S200 ![] bcast_S_S200 main_cst_10
  let main_v31 : IVec S200 1 := cmpf .olt main_v29 main_v30
  let main_c_11 : IVec S_ 1 := constantI S_ 1 1#1
  let main_v32 : IVec S_ 1 := (fun x v => Host.reduce IntOp.andi x v reducesTo_S200_S_d0 h_S_) main_v31 main_c_11
  let main_v33 : IVec S_ 1 := andi main_v28 main_v32
  fn_part2 (F := F) main_arg7 main_v33

def fn {F : FTy → Type} [FloatOps F] (main_arg0 : FVec F S30000x200 .f32) (main_arg1 : FVec F S10000x200 .f32) (main_arg2 : FVec F S230x200 .f32) (main_arg3 : FVec F S365x1 .f32) (main_arg4 : FVec F S10x200 .f32) (main_arg5 : FVec F S200x401 .f32) (main_arg6 : FVec F S200 .f32) (main_arg7 : FVec F S40000x1 .f32) (main_arg8 : IVec S600000 32) (main_arg9 : IVec S600000 32) (main_arg10 : IVec S600000 32) (main_arg11 : IVec S4096x4 32) : IVec S_ 1 :=
  let main_v0 : FVec F S30000x200 .f32 := Host.absf main_arg0
  let main_cst : FVec F S_ .f32 := constant S_ .f32 0x7F800000#32
  let main_v1 : FVec F S30000x200 .f32 := broadcastInDim S30000x200 ![] bcast_S_S30000x200 main_cst
  let main_v2 : IVec S30000x200 1 := cmpf .olt main_v0 main_v1
  let main_c : IVec S_ 1 := constantI S_ 1 1#1
  let main_v3 : IVec S_ 1 := (fun x v => Host.reduce IntOp.andi x v reducesTo_S30000x200_S_d0_1 h_S_) main_v2 main_c
  let main_v4 : FVec F S10000x200 .f32 := Host.absf main_arg1
  let main_cst_0 : FVec F S_ .f32 := constant S_ .f32 0x7F800000#32
  let main_v5 : FVec F S10000x200 .f32 := broadcastInDim S10000x200 ![] bcast_S_S10000x200 main_cst_0
  let main_v6 : IVec S10000x200 1 := cmpf .olt main_v4 main_v5
  let main_c_1 : IVec S_ 1 := constantI S_ 1 1#1
  let main_v7 : IVec S_ 1 := (fun x v => Host.reduce IntOp.andi x v reducesTo_S10000x200_S_d0_1 h_S_) main_v6 main_c_1
  let main_v8 : IVec S_ 1 := andi main_v3 main_v7
  let main_v9 : FVec F S230x200 .f32 := Host.absf main_arg2
  let main_cst_2 : FVec F S_ .f32 := constant S_ .f32 0x7F800000#32
  let main_v10 : FVec F S230x200 .f32 := broadcastInDim S230x200 ![] bcast_S_S230x200 main_cst_2
  let main_v11 : IVec S230x200 1 := cmpf .olt main_v9 main_v10
  let main_c_3 : IVec S_ 1 := constantI S_ 1 1#1
  let main_v12 : IVec S_ 1 := (fun x v => Host.reduce IntOp.andi x v reducesTo_S230x200_S_d0_1 h_S_) main_v11 main_c_3
  let main_v13 : IVec S_ 1 := andi main_v8 main_v12
  let main_v14 : FVec F S365x1 .f32 := Host.absf main_arg3
  let main_cst_4 : FVec F S_ .f32 := constant S_ .f32 0x7F800000#32
  let main_v15 : FVec F S365x1 .f32 := broadcastInDim S365x1 ![] bcast_S_S365x1 main_cst_4
  let main_v16 : IVec S365x1 1 := cmpf .olt main_v14 main_v15
  fn_part1 (F := F) main_arg4 main_arg5 main_arg6 main_arg7 main_v13 main_v16
-- ==== Kernel.lean ====
abbrev S30000x200 : Shape := ⟨2, ![30000, 200]⟩
abbrev S10000x200 : Shape := ⟨2, ![10000, 200]⟩
abbrev S230x200 : Shape := ⟨2, ![230, 200]⟩
abbrev S365x1 : Shape := ⟨2, ![365, 1]⟩
abbrev S10x200 : Shape := ⟨2, ![10, 200]⟩
abbrev S200x401 : Shape := ⟨2, ![200, 401]⟩
abbrev S200 : Shape := ⟨1, ![200]⟩
abbrev S40000x1 : Shape := ⟨2, ![40000, 1]⟩
abbrev S600000 : Shape := ⟨1, ![600000]⟩
abbrev S4096x4 : Shape := ⟨2, ![4096, 4]⟩
abbrev S40000x200 : Shape := ⟨2, ![40000, 200]⟩
abbrev S_ : Shape := ⟨0, ![]⟩
abbrev S600000x1 : Shape := ⟨2, ![600000, 1]⟩
abbrev S600000x200 : Shape := ⟨2, ![600000, 200]⟩
abbrev S4096x1 : Shape := ⟨2, ![4096, 1]⟩
abbrev S4096 : Shape := ⟨1, ![4096]⟩
abbrev S4096x200 : Shape := ⟨2, ![4096, 200]⟩
abbrev S401x200 : Shape := ⟨2, ![401, 200]⟩
abbrev S1x200 : Shape := ⟨2, ![1, 200]⟩
abbrev S200x30000 : Shape := ⟨2, ![200, 30000]⟩
abbrev S200x30720 : Shape := ⟨2, ![200, 30720]⟩
abbrev S4096x30720 : Shape := ⟨2, ![4096, 30720]⟩
abbrev S1024x200 : Shape := ⟨2, ![1024, 200]⟩
abbrev S1024x1 : Shape := ⟨2, ![1024, 1]⟩
abbrev S200x1920 : Shape := ⟨2, ![200, 1920]⟩
abbrev S1024x1920 : Shape := ⟨2, ![1024, 1920]⟩
abbrev S1024x401 : Shape := ⟨2, ![1024, 401]⟩
abbrev S4096x30000 : Shape := ⟨2, ![4096, 30000]⟩

abbrev nBuf : Space → Nat
  | .hbm => 107
  | .vmem => 13
  | .smem => 0
  | _ => 0

abbrev bufTy : (tb : Table) → Fin (tcTables nBuf tb) → BufTy
  | .hbm, ⟨0, _⟩ => ⟨S30000x200, .f32⟩
  | .hbm, ⟨1, _⟩ => ⟨S10000x200, .f32⟩
  | .hbm, ⟨2, _⟩ => ⟨S230x200, .f32⟩
  | .hbm, ⟨3, _⟩ => ⟨S365x1, .f32⟩
  | .hbm, ⟨4, _⟩ => ⟨S10x200, .f32⟩
  | .hbm, ⟨5, _⟩ => ⟨S200x401, .f32⟩
  | .hbm, ⟨6, _⟩ => ⟨S200, .f32⟩
  | .hbm, ⟨7, _⟩ => ⟨S40000x1, .f32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S4096x4, .i32⟩
  | .hbm, ⟨12, _⟩ => ⟨S40000x200, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x200, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x200, .f32⟩
  | .hbm, ⟨31, _⟩ => ⟨S600000x200, .f32⟩
  | .hbm, ⟨32, _⟩ => ⟨S_, .f32⟩
  | .hbm, ⟨33, _⟩ => ⟨S40000x200, .f32⟩
  | .hbm, ⟨34, _⟩ => ⟨S600000x1, .i32⟩
  | .hbm, ⟨35, _⟩ => ⟨S40000x200, .f32⟩
  | .hbm, ⟨36, _⟩ => ⟨S40000x200, .f32⟩
  | .hbm, ⟨37, _⟩ => ⟨S40000x200, .f32⟩
  | .hbm, ⟨38, _⟩ => ⟨S_, .f32⟩
  | .hbm, ⟨39, _⟩ => ⟨S40000x200, .f32⟩
  | .hbm, ⟨40, _⟩ => ⟨S40000x200, .i1⟩
  | .hbm, ⟨41, _⟩ => ⟨S_, .f32⟩
  | .hbm, ⟨42, _⟩ => ⟨S40000x200, .f32⟩
  | .hbm, ⟨43, _⟩ => ⟨S40000x200, .f32⟩
  | .hbm, ⟨44, _⟩ => ⟨S40000x200, .f32⟩
  | .hbm, ⟨45, _⟩ => ⟨S30000x200, .f32⟩
  | .hbm, ⟨46, _⟩ => ⟨S4096x1, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x200, .f32⟩
  | .hbm, ⟨57, _⟩ => ⟨S4096x1, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x200, .f32⟩
  | .hbm, ⟨68, _⟩ => ⟨S4096x1, .i32⟩
  | .hbm, ⟨69, _⟩ => ⟨S4096, .i32⟩
  | .hbm, ⟨70, _⟩ => ⟨S_, .i32⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S4096, .i32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i1⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x1, .f32⟩
  | .hbm, ⟨97, _⟩ => ⟨S401x200, .f32⟩
  | .hbm, ⟨98, _⟩ => ⟨S401x200, .bf16⟩
  | .hbm, ⟨99, _⟩ => ⟨S1x200, .f32⟩
  | .hbm, ⟨100, _⟩ => ⟨S200x30000, .f32⟩
  | .hbm, ⟨101, _⟩ => ⟨S_, .i32⟩
  | .hbm, ⟨102, _⟩ => ⟨S_, .f32⟩
  | .hbm, ⟨103, _⟩ => ⟨S200x30720, .f32⟩
  | .hbm, ⟨104, _⟩ => ⟨S200x30720, .bf16⟩
  | .hbm, ⟨105, _⟩ => ⟨S4096x30720, .f32⟩
  | .hbm, ⟨106, _⟩ => ⟨S4096x30000, .f32⟩
  | .local _ .vmem, ⟨0, _⟩ => ⟨S1024x200, .f32⟩
  | .local _ .vmem, ⟨1, _⟩ => ⟨S1024x200, .f32⟩
  | .local _ .vmem, ⟨2, _⟩ => ⟨S1024x200, .f32⟩
  | .local _ .vmem, ⟨3, _⟩ => ⟨S1024x200, .f32⟩
  | .local _ .vmem, ⟨4, _⟩ => ⟨S1024x1, .f32⟩
  | .local _ .vmem, ⟨5, _⟩ => ⟨S1024x1, .f32⟩
  | .local _ .vmem, ⟨6, _⟩ => ⟨S401x200, .bf16⟩
  | .local _ .vmem, ⟨7, _⟩ => ⟨S1x200, .f32⟩
  | .local _ .vmem, ⟨8, _⟩ => ⟨S200x1920, .bf16⟩
  | .local _ .vmem, ⟨9, _⟩ => ⟨S200x1920, .bf16⟩
  | .local _ .vmem, ⟨10, _⟩ => ⟨S1024x1920, .f32⟩
  | .local _ .vmem, ⟨11, _⟩ => ⟨S1024x1920, .f32⟩
  | .local _ .vmem, ⟨12, _⟩ => ⟨S1024x200, .f32⟩
  | _, _ => ⟨S30000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v47 : Ref sig .tc := ⟨.hbm, 87, rfl⟩
abbrev main_c_10 : Ref sig .tc := ⟨.hbm, 88, rfl⟩
abbrev main_v48 : Ref sig .tc := ⟨.hbm, 89, rfl⟩
abbrev main_v49 : Ref sig .tc := ⟨.hbm, 90, rfl⟩
abbrev main_c_11 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_c_12 : Ref sig .tc := ⟨.hbm, 101, rfl⟩
abbrev main_call2_v0 : Ref sig .tc := ⟨.hbm, 102, rfl⟩
abbrev main_v59 : Ref sig .tc := ⟨.hbm, 103, rfl⟩
abbrev main_v60 : Ref sig .tc := ⟨.hbm, 104, rfl⟩
abbrev main_v61 : Ref sig .tc := ⟨.hbm, 105, rfl⟩
abbrev main_v62 : Ref sig .tc := ⟨.hbm, 106, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x200 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x200 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S401x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S200x1920 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1920 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  concatenates_S30000x200_S10000x200_S40000x200_d0 : Shape.Concatenates [S30000x200, S10000x200] S40000x200 0
  bcast_S_S600000 : S_.BroadcastsInDim S600000 (![] : Fin 0 → Fin S600000.rank)
  bcast_S600000_S600000x1_0 : S600000.BroadcastsInDim S600000x1 (![0] : Fin 1 → Fin S600000x1.rank)
  bcast_S_S40000x200 : S_.BroadcastsInDim S40000x200 (![] : Fin 0 → Fin S40000x200.rank)
  bcast_S40000x1_S40000x200_0_1 : S40000x1.BroadcastsInDim S40000x200 (![0, 1] : Fin 2 → Fin S40000x200.rank)
  slices_S40000x200_S30000x200_0_0 : S40000x200.Slices ![0, 0] S30000x200
  slices_S4096x4_S4096x1_0_0 : S4096x4.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x4_S4096x1_0_1 : S4096x4.Slices ![0, 1] S4096x1
  slices_S4096x4_S4096x1_0_3 : S4096x4.Slices ![0, 3] S4096x1
  transposes_S200x401_S401x200_1_0 : S200x401.Transposes [1, 0] S401x200
  bitsLt_bf16_f32 : FTy.bits .bf16 < FTy.bits .f32
  shapeCasts_S200_S1x200 : S200.ShapeCasts S1x200
  transposes_S30000x200_S200x30000_1_0 : S30000x200.Transposes [1, 0] S200x30000
  pads_S200x30000_S200x30720_000_07200 : S200x30000.Pads (![0, 0] : Fin 2 → Nat) ![0, 720] ![0, 0] S200x30720
  h_S_ : 0 < S_.numel
  inb_S1024x200_S1024x200_0_0 : ∀ a, (![0, 0] : Fin 2 → Nat) a + S1024x200.size a ≤ S1024x200.size a
  h_S1024x200 : 0 < S1024x200.numel
  shapeCasts_S1024x200_S1024x200 : S1024x200.ShapeCasts S1024x200
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  concatenates_S1024x200_S1024x200_S1024x1_S1024x401_d1 : Shape.Concatenates [S1024x200, S1024x200, S1024x1] S1024x401 1
  inb_S401x200_S401x200_0_0 : ∀ a, (![0, 0] : Fin 2 → Nat) a + S401x200.size a ≤ S401x200.size a
  h_S401x200 : 0 < S401x200.numel
  shapeCasts_S401x200_S401x200 : S401x200.ShapeCasts S401x200
  inb_S1x200_S1x200_0_0 : ∀ a, (![0, 0] : Fin 2 → Nat) a + S1x200.size a ≤ S1x200.size a
  h_S1x200 : 0 < S1x200.numel
  shapeCasts_S1x200_S1x200 : S1x200.ShapeCasts S1x200
  broadcasts_S1x200_S1024x200 : S1x200.Broadcasts S1024x200
  inb_S200x1920_S200x1920_0_0 : ∀ a, (![0, 0] : Fin 2 → Nat) a + S200x1920.size a ≤ S200x1920.size a
  h_S200x1920 : 0 < S200x1920.numel
  shapeCasts_S200x1920_S200x1920 : S200x1920.ShapeCasts S200x1920
  inb_S1024x1920_S1024x1920_0_0 : ∀ a, (![0, 0] : Fin 2 → Nat) a + S1024x1920.size a ≤ S1024x1920.size a
  h_S1024x1920 : 0 < S1024x1920.numel
  slices_S4096x30720_S4096x30000_0_0 : S4096x30720.Slices ![0, 0] S4096x30000
  gather_S40000x200_S600000x1_S600000x200_1_0_n_n_0_1_1200_wf : GatherDims.WF S40000x200 S600000x1 S600000x200 [1] [0] [] [0] [] 1 ![1, 200]
  gather_S10x200_S600000x1_S600000x200_1_0_n_n_0_1_1200_wf : GatherDims.WF S10x200 S600000x1 S600000x200 [1] [0] [] [0] [] 1 ![1, 200]
  scatter_S40000x200_S600000x1_S600000x200_1_0_0_1_wf : ScatterDims.WF S40000x200 S600000x1 S600000x200 [1] [0] [0] 1
  gather_S30000x200_S4096x1_S4096x200_1_0_n_n_0_1_1200_wf : GatherDims.WF S30000x200 S4096x1 S4096x200 [1] [0] [] [0] [] 1 ![1, 200]
  gather_S230x200_S4096x1_S4096x200_1_0_n_n_0_1_1200_wf : GatherDims.WF S230x200 S4096x1 S4096x200 [1] [0] [] [0] [] 1 ![1, 200]
  gather_S365x1_S4096x1_S4096x1_1_0_n_n_0_1_11_wf : GatherDims.WF S365x1 S4096x1 S4096x1 [1] [0] [] [0] [] 1 ![1, 1]
  dot_S1024x401_S401x200_S1024x200_1_0_0_1_n_n_wf : DotDims.WF S1024x401 S401x200 S1024x200 [1] [0] [0] [1] [] []
  dot_S1024x200_S200x1920_S1024x1920_1_0_0_1_n_n_wf : DotDims.WF S1024x200 S200x1920 S1024x1920 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x200.size a ≤ S4096x200.size a
  hwx0_0 : ∀ i : grid0.Coords, EltTy.bits .f32 = 32 ∨ (Rect.block (s := S4096x200) S1024x200.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x200.size a ≤ S4096x200.size a
  hwx0_1 : ∀ i : grid0.Coords, EltTy.bits .f32 = 32 ∨ (Rect.block (s := S4096x200) S1024x200.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S4096x1.size a
  hwx0_2 : ∀ i : grid0.Coords, EltTy.bits .f32 = 32 ∨ (Rect.block (s := S4096x1) S1024x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S401x200.size a ≤ S401x200.size a
  hwx0_3 : ∀ i : grid0.Coords, EltTy.bits .bf16 = 32 ∨ (Rect.block (s := S401x200) S401x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x200.size a ≤ S1x200.size a
  hwx0_4 : ∀ i : grid0.Coords, EltTy.bits .f32 = 32 ∨ (Rect.block (s := S1x200) S1x200.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x1920.size a ≤ S200x30720.size a
  hwx0_5 : ∀ i : grid0.Coords, EltTy.bits .bf16 = 32 ∨ (Rect.block (s := S200x30720) S200x1920.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1920.size a ≤ S4096x30720.size a
  hwx0_6 : ∀ i : grid0.Coords, EltTy.bits .f32 = 32 ∨ (Rect.block (s := S4096x30720) S1024x1920.size (cc0_transform_6 i) (hinb0_6 i)).WholeWords (EltTy.packing .f32)

variable [Facts₀]

def gather_S40000x200_S600000x1_S600000x200_1_0_n_n_0_1_1200 : GatherDims S40000x200 S600000x1 S600000x200 where
  offsetDims := [1]
  collapsedSliceDims := [0]
  operandBatchingDims := []
  startIndicesBatchingDims := []
  startIndexMap := [0]
  indexVectorDim := 1
  sliceSizes := ![1, 200]
  wf := gather_S40000x200_S600000x1_S600000x200_1_0_n_n_0_1_1200_wf
def gather_S10x200_S600000x1_S600000x200_1_0_n_n_0_1_1200 : GatherDims S10x200 S600000x1 S600000x200 where
  offsetDims := [1]
  collapsedSliceDims := [0]
  operandBatchingDims := []
  startIndicesBatchingDims := []
  startIndexMap := [0]
  indexVectorDim := 1
  sliceSizes := ![1, 200]
  wf := gather_S10x200_S600000x1_S600000x200_1_0_n_n_0_1_1200_wf
def scatter_S40000x200_S600000x1_S600000x200_1_0_0_1 : ScatterDims S40000x200 S600000x1 S600000x200 where
  updateWindowDims := [1]
  insertedWindowDims := [0]
  scatterDimsToOperandDims := [0]
  indexVectorDim := 1
  wf := scatter_S40000x200_S600000x1_S600000x200_1_0_0_1_wf
def gather_S30000x200_S4096x1_S4096x200_1_0_n_n_0_1_1200 : GatherDims S30000x200 S4096x1 S4096x200 where
  offsetDims := [1]
  collapsedSliceDims := [0]
  operandBatchingDims := []
  startIndicesBatchingDims := []
  startIndexMap := [0]
  indexVectorDim := 1
  sliceSizes := ![1, 200]
  wf := gather_S30000x200_S4096x1_S4096x200_1_0_n_n_0_1_1200_wf
def gather_S230x200_S4096x1_S4096x200_1_0_n_n_0_1_1200 : GatherDims S230x200 S4096x1 S4096x200 where
  offsetDims := [1]
  collapsedSliceDims := [0]
  operandBatchingDims := []
  startIndicesBatchingDims := []
  startIndexMap := [0]
  indexVectorDim := 1
  sliceSizes := ![1, 200]
  wf := gather_S230x200_S4096x1_S4096x200_1_0_n_n_0_1_1200_wf
def gather_S365x1_S4096x1_S4096x1_1_0_n_n_0_1_11 : GatherDims S365x1 S4096x1 S4096x1 where
  offsetDims := [1]
  collapsedSliceDims := [0]
  operandBatchingDims := []
  startIndicesBatchingDims := []
  startIndexMap := [0]
  indexVectorDim := 1
  sliceSizes := ![1, 1]
  wf := gather_S365x1_S4096x1_S4096x1_1_0_n_n_0_1_11_wf
def dot_S1024x401_S401x200_S1024x200_1_0_0_1_n_n : DotDims S1024x401 S401x200 S1024x200 where
  lhsContracting := [1]
  rhsContracting := [0]
  lhsNonContracting := [0]
  rhsNonContracting := [1]
  lhsBatch := []
  rhsBatch := []
  wf := dot_S1024x401_S401x200_S1024x200_1_0_0_1_n_n_wf
def dot_S1024x200_S200x1920_S1024x1920_1_0_0_1_n_n : DotDims S1024x200 S200x1920 S1024x1920 where
  lhsContracting := [1]
  rhsContracting := [0]
  lhsNonContracting := [0]
  rhsNonContracting := [1]
  lhsBatch := []
  rhsBatch := []
  wf := dot_S1024x200_S200x1920_S1024x1920_1_0_0_1_n_n_wf

abbrev win0_0 : Pipeline.Window sig grid0 :=
  Pipeline.Window.ofSpec (Memref.whole main_v35) S1024x200.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v44) S1024x200.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v54) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56) S401x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v57) S1x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v60) S200x1920.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v61) S1024x1920.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S30000x200 : Shape := ⟨2, ![30000, 200]⟩
abbrev S10000x200 : Shape := ⟨2, ![10000, 200]⟩
abbrev S230x200 : Shape := ⟨2, ![230, 200]⟩
abbrev S365x1 : Shape := ⟨2, ![365, 1]⟩
abbrev S10x200 : Shape := ⟨2, ![10, 200]⟩
abbrev S200x401 : Shape := ⟨2, ![200, 401]⟩
abbrev S200 : Shape := ⟨1, ![200]⟩
abbrev S40000x1 : Shape := ⟨2, ![40000, 1]⟩
abbrev S600000 : Shape := ⟨1, ![600000]⟩
abbrev S4096x4 : Shape := ⟨2, ![4096, 4]⟩
abbrev S40000x200 : Shape := ⟨2, ![40000, 200]⟩
abbrev S_ : Shape := ⟨0, ![]⟩
abbrev S600000x1 : Shape := ⟨2, ![600000, 1]⟩
abbrev S600000x200 : Shape := ⟨2, ![600000, 200]⟩
abbrev S4096x1 : Shape := ⟨2, ![4096, 1]⟩
abbrev S4096 : Shape := ⟨1, ![4096]⟩
abbrev S4096x200 : Shape := ⟨2, ![4096, 200]⟩
abbrev S4096x401 : Shape := ⟨2, ![4096, 401]⟩
abbrev S401x200 : Shape := ⟨2, ![401, 200]⟩
abbrev S1x200 : Shape := ⟨2, ![1, 200]⟩
abbrev S200x30000 : Shape := ⟨2, ![200, 30000]⟩
abbrev S4096x30000 : Shape := ⟨2, ![4096, 30000]⟩

abbrev nBuf : Space → Nat
  | .hbm => 109
  | .vmem => 0
  | .smem => 0
  | _ => 0

abbrev bufTy : (tb : Table) → Fin (tcTables nBuf tb) → BufTy
  | .hbm, ⟨0, _⟩ => ⟨S30000x200, .f32⟩
  | .hbm, ⟨1, _⟩ => ⟨S10000x200, .f32⟩
  | .hbm, ⟨2, _⟩ => ⟨S230x200, .f32⟩
  | .hbm, ⟨3, _⟩ => ⟨S365x1, .f32⟩
  | .hbm, ⟨4, _⟩ => ⟨S10x200, .f32⟩
  | .hbm, ⟨5, _⟩ => ⟨S200x401, .f32⟩
  | .hbm, ⟨6, _⟩ => ⟨S200, .f32⟩
  | .hbm, ⟨7, _⟩ => ⟨S40000x1, .f32⟩
  | .hbm, ⟨8, _⟩ => ⟨S600000, .i32⟩
  | .hbm, ⟨9, _⟩ => ⟨S600000, .i32⟩
  | .hbm, ⟨10, _⟩ => ⟨S600000, .i32⟩
  | .hbm, ⟨11, _⟩ => ⟨S4096x4, .i32⟩
  | .hbm, ⟨12, _⟩ => ⟨S40000x200, .f32⟩
  | .hbm, ⟨13, _⟩ => ⟨S_, .i32⟩
  | .hbm, ⟨14, _⟩ => ⟨S600000, .i32⟩
  | .hbm, ⟨15, _⟩ => ⟨S600000, .i1⟩
  | .hbm, ⟨16, _⟩ => ⟨S_, .i32⟩
  | .hbm, ⟨17, _⟩ => ⟨S600000, .i32⟩
  | .hbm, ⟨18, _⟩ => ⟨S600000, .i32⟩
  | .hbm, ⟨19, _⟩ => ⟨S600000, .i32⟩
  | .hbm, ⟨20, _⟩ => ⟨S600000x1, .i32⟩
  | .hbm, ⟨21, _⟩ => ⟨S600000x200, .f32⟩
  | .hbm, ⟨22, _⟩ => ⟨S_, .i32⟩
  | .hbm, ⟨23, _⟩ => ⟨S600000, .i32⟩
  | .hbm, ⟨24, _⟩ => ⟨S600000, .i1⟩
  | .hbm, ⟨25, _⟩ => ⟨S_, .i32⟩
  | .hbm, ⟨26, _⟩ => ⟨S600000, .i32⟩
  | .hbm, ⟨27, _⟩ => ⟨S600000, .i32⟩
  | .hbm, ⟨28, _⟩ => ⟨S600000, .i32⟩
  | .hbm, ⟨29, _⟩ => ⟨S600000x1, .i32⟩
  | .hbm, ⟨30, _⟩ => ⟨S600000x200, .f32⟩
  | .hbm, ⟨31, _⟩ => ⟨S600000x200, .f32⟩
  | .hbm, ⟨32, _⟩ => ⟨S_, .f32⟩
  | .hbm, ⟨33, _⟩ => ⟨S40000x200, .f32⟩
  | .hbm, ⟨34, _⟩ => ⟨S600000x1, .i32⟩
  | .hbm, ⟨35, _⟩ => ⟨S40000x200, .f32⟩
  | .hbm, ⟨36, _⟩ => ⟨S40000x200, .f32⟩
  | .hbm, ⟨37, _⟩ => ⟨S40000x200, .f32⟩
  | .hbm, ⟨38, _⟩ => ⟨S_, .f32⟩
  | .hbm, ⟨39, _⟩ => ⟨S40000x200, .f32⟩
  | .hbm, ⟨40, _⟩ => ⟨S40000x200, .i1⟩
  | .hbm, ⟨41, _⟩ => ⟨S_, .f32⟩
  | .hbm, ⟨42, _⟩ => ⟨S40000x200, .f32⟩
  | .hbm, ⟨43, _⟩ => ⟨S40000x200, .f32⟩
  | .hbm, ⟨44, _⟩ => ⟨S40000x200, .f32⟩
  | .hbm, ⟨45, _⟩ => ⟨S30000x200, .f32⟩
  | .hbm, ⟨46, _⟩ => ⟨S4096x1, .i32⟩
  | .hbm, ⟨47, _⟩ => ⟨S4096, .i32⟩
  | .hbm, ⟨48, _⟩ => ⟨S_, .i32⟩
  | .hbm, ⟨49, _⟩ => ⟨S4096, .i32⟩
  | .hbm, ⟨50, _⟩ => ⟨S4096, .i1⟩
  | .hbm, ⟨51, _⟩ => ⟨S_, .i32⟩
  | .hbm, ⟨52, _⟩ => ⟨S4096, .i32⟩
  | .hbm, ⟨53, _⟩ => ⟨S4096, .i32⟩
  | .hbm, ⟨54, _⟩ => ⟨S4096, .i32⟩
  | .hbm, ⟨55, _⟩ => ⟨S4096x1, .i32⟩
  | .hbm, ⟨56, _⟩ => ⟨S4096x200, .f32⟩
  | .hbm, ⟨57, _⟩ => ⟨S4096x1, .i32⟩
  | .hbm, ⟨58, _⟩ => ⟨S4096, .i32⟩
  | .hbm, ⟨59, _⟩ => ⟨S_, .i32⟩
  | .hbm, ⟨60, _⟩ => ⟨S4096, .i32⟩
  | .hbm, ⟨61, _⟩ => ⟨S4096, .i1⟩
  | .hbm, ⟨62, _⟩ => ⟨S_, .i32⟩
  | .hbm, ⟨63, _⟩ => ⟨S4096, .i32⟩
  | .hbm, ⟨64, _⟩ => ⟨S4096, .i32⟩
  | .hbm, ⟨65, _⟩ => ⟨S4096, .i32⟩
  | .hbm, ⟨66, _⟩ => ⟨S4096x1, .i32⟩
  | .hbm, ⟨67, _⟩ => ⟨S4096x200, .f32⟩
  | .hbm, ⟨68, _⟩ => ⟨S4096x1, .i32⟩
  | .hbm, ⟨69, _⟩ => ⟨S4096, .i32⟩
  | .hbm, ⟨70, _⟩ => ⟨S_, .i32⟩
  | .hbm, ⟨71, _⟩ => ⟨S_, .i32⟩
  | .hbm, ⟨72, _⟩ => ⟨S4096, .i32⟩
  | .hbm, ⟨73, _⟩ => ⟨S4096, .i32⟩
  | .hbm, ⟨74, _⟩ => ⟨S4096, .i32⟩
  | .hbm, ⟨75, _⟩ => ⟨S_, .i32⟩
  | .hbm, ⟨76, _⟩ => ⟨S4096, .i32⟩
  | .hbm, ⟨77, _⟩ => ⟨S4096, .i1⟩
  | .hbm, ⟨78, _⟩ => ⟨S4096, .i32⟩
  | .hbm, ⟨79, _⟩ => ⟨S4096, .i32⟩
  | .hbm, ⟨80, _⟩ => ⟨S_, .i32⟩
  | .hbm, ⟨81, _⟩ => ⟨S4096, .i32⟩
  | .hbm, ⟨82, _⟩ => ⟨S4096, .i1⟩
  | .hbm, ⟨83, _⟩ => ⟨S4096, .i1⟩
  | .hbm, ⟨84, _⟩ => ⟨S_, .i32⟩
  | .hbm, ⟨85, _⟩ => ⟨S4096, .i32⟩
  | .hbm, ⟨86, _⟩ => ⟨S4096, .i32⟩
  | .hbm, ⟨87, _⟩ => ⟨S4096, .i32⟩
  | .hbm, ⟨88, _⟩ => ⟨S_, .i32⟩
  | .hbm, ⟨89, _⟩ => ⟨S4096, .i32⟩
  | .hbm, ⟨90, _⟩ => ⟨S4096, .i1⟩
  | .hbm, ⟨91, _⟩ => ⟨S_, .i32⟩
  | .hbm, ⟨92, _⟩ => ⟨S4096, .i32⟩
  | .hbm, ⟨93, _⟩ => ⟨S4096, .i32⟩
  | .hbm, ⟨94, _⟩ => ⟨S4096, .i32⟩
  | .hbm, ⟨95, _⟩ => ⟨S4096x1, .i32⟩
  | .hbm, ⟨96, _⟩ => ⟨S4096x1, .f32⟩
  | .hbm, ⟨97, _⟩ => ⟨S4096x200, .f32⟩
  | .hbm, ⟨98, _⟩ => ⟨S4096x401, .f32⟩
  | .hbm, ⟨99, _⟩ => ⟨S401x200, .f32⟩
  | .hbm, ⟨100, _⟩ => ⟨S4096x200, .f32⟩
  | .hbm, ⟨101, _⟩ => ⟨S1x200, .f32⟩
  | .hbm, ⟨102, _⟩ => ⟨S4096x200, .f32⟩
  | .hbm, ⟨103, _⟩ => ⟨S4096x200, .f32⟩
  | .hbm, ⟨104, _⟩ => ⟨S_, .f32⟩
  | .hbm, ⟨105, _⟩ => ⟨S4096x200, .f32⟩
  | .hbm, ⟨106, _⟩ => ⟨S4096x200, .f32⟩
  | .hbm, ⟨107, _⟩ => ⟨S200x30000, .f32⟩
  | .hbm, ⟨108, _⟩ => ⟨S4096x30000, .f32⟩
  | _, _ => ⟨S30000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_c_1 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_3 : Ref sig .tc := ⟨.hbm, 38, rfl⟩
abbrev main_v21 : Ref sig .tc := ⟨.hbm, 39, rfl⟩
abbrev main_v22 : Ref sig .tc := ⟨.hbm, 40, rfl⟩
abbrev main_cst_4 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_c_5 : Ref sig .tc := ⟨.hbm, 48, rfl⟩
abbrev main_v29 : Ref sig .tc := ⟨.hbm, 49, rfl⟩
abbrev main_v30 : Ref sig .tc := ⟨.hbm, 50, rfl⟩
abbrev main_c_6 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_c_7 : Ref sig .tc := ⟨.hbm, 59, rfl⟩
abbrev main_v38 : Ref sig .tc := ⟨.hbm, 60, rfl⟩
abbrev main_v39 : Ref sig .tc := ⟨.hbm, 61, rfl⟩
abbrev main_c_8 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_c_9 : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_c : Ref sig .tc := ⟨.hbm, 80, rfl⟩
abbrev main_call1_v9 : Ref sig .tc := ⟨.hbm, 81, rfl⟩
abbrev main_call1_v10 : Ref sig .tc := ⟨.hbm, 82, rfl⟩
abbrev main_call1_v11 : Ref sig .tc := ⟨.hbm, 83, rfl⟩
abbrev main_call1_c_0 : Ref sig .tc := ⟨.hbm, 84, rfl⟩
abbrev main_call1_v12 : Ref sig .tc := ⟨.hbm, 85, rfl⟩
abbrev main_call1_v13 : Ref sig .tc := ⟨.hbm, 86, rfl⟩
abbrev main_v47 : Ref sig .tc := ⟨.hbm, 87, rfl⟩
abbrev main_c_10 : Ref sig .tc := ⟨.hbm, 88, rfl⟩
abbrev main_v48 : Ref sig .tc := ⟨.hbm, 89, rfl⟩
abbrev main_v49 : Ref sig .tc := ⟨.hbm, 90, rfl⟩
abbrev main_c_11 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_v53 : Ref sig .tc := ⟨.hbm, 95, rfl⟩
abbrev main_v54 : Ref sig .tc := ⟨.hbm, 96, rfl⟩
abbrev main_v55 : Ref sig .tc := ⟨.hbm, 97, rfl⟩
abbrev main_v56 : Ref sig .tc := ⟨.hbm, 98, rfl⟩
abbrev main_v57 : Ref sig .tc := ⟨.hbm, 99, rfl⟩
abbrev main_v58 : Ref sig .tc := ⟨.hbm, 100, rfl⟩
abbrev main_v59 : Ref sig .tc := ⟨.hbm, 101, rfl⟩
abbrev main_v60 : Ref sig .tc := ⟨.hbm, 102, rfl⟩
abbrev main_v61 : Ref sig .tc := ⟨.hbm, 103, rfl⟩
abbrev main_call2_cst : Ref sig .tc := ⟨.hbm, 104, rfl⟩
abbrev main_call2_v0 : Ref sig .tc := ⟨.hbm, 105, rfl⟩
abbrev main_v62 : Ref sig .tc := ⟨.hbm, 106, rfl⟩
abbrev main_v63 : Ref sig .tc := ⟨.hbm, 107, rfl⟩
abbrev main_v64 : Ref sig .tc := ⟨.hbm, 108, rfl⟩

abbrev nD : Nat := 1
abbrev τ : Topo := Topo.v7x

variable {F : FTy → Type} [FloatOps F]

class Facts₀ : Prop where
  concatenates_S30000x200_S10000x200_S40000x200_d0 : Shape.Concatenates [S30000x200, S10000x200] S40000x200 0
  bcast_S_S600000 : S_.BroadcastsInDim S600000 (![] : Fin 0 → Fin S600000.rank)
  bcast_S600000_S600000x1_0 : S600000.BroadcastsInDim S600000x1 (![0] : Fin 1 → Fin S600000x1.rank)
  bcast_S_S40000x200 : S_.BroadcastsInDim S40000x200 (![] : Fin 0 → Fin S40000x200.rank)
  bcast_S40000x1_S40000x200_0_1 : S40000x1.BroadcastsInDim S40000x200 (![0, 1] : Fin 2 → Fin S40000x200.rank)
  slices_S40000x200_S30000x200_0_0 : S40000x200.Slices ![0, 0] S30000x200
  slices_S4096x4_S4096x1_0_0 : S4096x4.Slices ![0, 0] S4096x1
  shapeCasts_S4096x1_S4096 : S4096x1.ShapeCasts S4096
  bcast_S_S4096 : S_.BroadcastsInDim S4096 (![] : Fin 0 → Fin S4096.rank)
  bcast_S4096_S4096x1_0 : S4096.BroadcastsInDim S4096x1 (![0] : Fin 1 → Fin S4096x1.rank)
  slices_S4096x4_S4096x1_0_1 : S4096x4.Slices ![0, 1] S4096x1
  slices_S4096x4_S4096x1_0_3 : S4096x4.Slices ![0, 3] S4096x1
  concatenates_S4096x200_S4096x200_S4096x1_S4096x401_d1 : Shape.Concatenates [S4096x200, S4096x200, S4096x1] S4096x401 1
  transposes_S200x401_S401x200_1_0 : S200x401.Transposes [1, 0] S401x200
  bcast_S200_S1x200_1 : S200.BroadcastsInDim S1x200 (![1] : Fin 1 → Fin S1x200.rank)
  bcast_S1x200_S4096x200_0_1 : S1x200.BroadcastsInDim S4096x200 (![0, 1] : Fin 2 → Fin S4096x200.rank)
  bcast_S_S4096x200 : S_.BroadcastsInDim S4096x200 (![] : Fin 0 → Fin S4096x200.rank)
  transposes_S30000x200_S200x30000_1_0 : S30000x200.Transposes [1, 0] S200x30000
  gather_S40000x200_S600000x1_S600000x200_1_0_n_n_0_1_1200_wf : GatherDims.WF S40000x200 S600000x1 S600000x200 [1] [0] [] [0] [] 1 ![1, 200]
  gather_S10x200_S600000x1_S600000x200_1_0_n_n_0_1_1200_wf : GatherDims.WF S10x200 S600000x1 S600000x200 [1] [0] [] [0] [] 1 ![1, 200]
  scatter_S40000x200_S600000x1_S600000x200_1_0_0_1_wf : ScatterDims.WF S40000x200 S600000x1 S600000x200 [1] [0] [0] 1
  gather_S30000x200_S4096x1_S4096x200_1_0_n_n_0_1_1200_wf : GatherDims.WF S30000x200 S4096x1 S4096x200 [1] [0] [] [0] [] 1 ![1, 200]
  gather_S230x200_S4096x1_S4096x200_1_0_n_n_0_1_1200_wf : GatherDims.WF S230x200 S4096x1 S4096x200 [1] [0] [] [0] [] 1 ![1, 200]
  gather_S365x1_S4096x1_S4096x1_1_0_n_n_0_1_11_wf : GatherDims.WF S365x1 S4096x1 S4096x1 [1] [0] [] [0] [] 1 ![1, 1]
  dot_S4096x401_S401x200_S4096x200_1_0_0_1_n_n_wf : DotDims.WF S4096x401 S401x200 S4096x200 [1] [0] [0] [1] [] []
  dot_S4096x200_S200x30000_S4096x30000_1_0_0_1_n_n_wf : DotDims.WF S4096x200 S200x30000 S4096x30000 [1] [0] [0] [1] [] []

variable [Facts₀]

def gather_S40000x200_S600000x1_S600000x200_1_0_n_n_0_1_1200 : GatherDims S40000x200 S600000x1 S600000x200 where
  offsetDims := [1]
  collapsedSliceDims := [0]
  operandBatchingDims := []
  startIndicesBatchingDims := []
  startIndexMap := [0]
  indexVectorDim := 1
  sliceSizes := ![1, 200]
  wf := gather_S40000x200_S600000x1_S600000x200_1_0_n_n_0_1_1200_wf
def gather_S10x200_S600000x1_S600000x200_1_0_n_n_0_1_1200 : GatherDims S10x200 S600000x1 S600000x200 where
  offsetDims := [1]
  collapsedSliceDims := [0]
  operandBatchingDims := []
  startIndicesBatchingDims := []
  startIndexMap := [0]
  indexVectorDim := 1
  sliceSizes := ![1, 200]
  wf := gather_S10x200_S600000x1_S600000x200_1_0_n_n_0_1_1200_wf
def scatter_S40000x200_S600000x1_S600000x200_1_0_0_1 : ScatterDims S40000x200 S600000x1 S600000x200 where
  updateWindowDims := [1]
  insertedWindowDims := [0]
  scatterDimsToOperandDims := [0]
  indexVectorDim := 1
  wf := scatter_S40000x200_S600000x1_S600000x200_1_0_0_1_wf
def gather_S30000x200_S4096x1_S4096x200_1_0_n_n_0_1_1200 : GatherDims S30000x200 S4096x1 S4096x200 where
  offsetDims := [1]
  collapsedSliceDims := [0]
  operandBatchingDims := []
  startIndicesBatchingDims := []
  startIndexMap := [0]
  indexVectorDim := 1
  sliceSizes := ![1, 200]
  wf := gather_S30000x200_S4096x1_S4096x200_1_0_n_n_0_1_1200_wf
def gather_S230x200_S4096x1_S4096x200_1_0_n_n_0_1_1200 : GatherDims S230x200 S4096x1 S4096x200 where
  offsetDims := [1]
  collapsedSliceDims := [0]
  operandBatchingDims := []
  startIndicesBatchingDims := []
  startIndexMap := [0]
  indexVectorDim := 1
  sliceSizes := ![1, 200]
  wf := gather_S230x200_S4096x1_S4096x200_1_0_n_n_0_1_1200_wf
def gather_S365x1_S4096x1_S4096x1_1_0_n_n_0_1_11 : GatherDims S365x1 S4096x1 S4096x1 where
  offsetDims := [1]
  collapsedSliceDims := [0]
  operandBatchingDims := []
  startIndicesBatchingDims := []
  startIndexMap := [0]
  indexVectorDim := 1
  sliceSizes := ![1, 1]
  wf := gather_S365x1_S4096x1_S4096x1_1_0_n_n_0_1_11_wf
def dot_S4096x401_S401x200_S4096x200_1_0_0_1_n_n : DotDims S4096x401 S401x200 S4096x200 where
  lhsContracting := [1]
  rhsContracting := [0]
  lhsNonContracting := [0]
  rhsNonContracting := [1]
  lhsBatch := []
  rhsBatch := []
  wf := dot_S4096x401_S401x200_S4096x200_1_0_0_1_n_n_wf
def dot_S4096x200_S200x30000_S4096x30000_1_0_0_1_n_n : DotDims S4096x200 S200x30000 S4096x30000 where
  lhsContracting := [1]
  rhsContracting := [0]
  lhsNonContracting := [0]
  rhsNonContracting := [1]
  lhsBatch := []
  rhsBatch := []
  wf := dot_S4096x200_S200x30000_S4096x30000_1_0_0_1_n_n_wf

class Facts : Prop extends Facts₀ where

variable [Facts]
-- ==== Proof.KPieces.lean ====
/-
  What the kernel body leaves, read as values (any float family `F`).

  The body runs in two cases. At the first column tile of a row block (grid coordinate 1 = 0) it stores the
  hidden layer of the row block — relu ([tanh e | r | t] · Wᵀ + b), the payload `k0_pay1` of the five input
  blocks — into the scratch, reads it back and stores its product with the column tile of the padded entity
  matrix (`k0_pay2`) into the output tile. At every other point the scratch is left as the point before left
  it, and the output tile is the same product of what the scratch holds. So after every point the scratch holds
  the hidden layer of the point's ROW BLOCK (computed at the row block's first point, carried since), and the
  output tile is its product with the point's column tile: by induction on the point.
-/
import proofs.«128595_j18803366822339_1_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.KVal

open Cert.KernelIdeal Cert.KernelIdeal.Gen

variable {F : FTy → Type} [FloatOps F]
variable (m : (ℓ : Loc nD τ sig) → Buf (Elt F) ℓ)

theorem hz : (![0, 0] : Fin 2 → Nat) = fun _ => 0 := funext fun a => by fin_cases a <;> rfl

/-- First point of a row block: the scratch ends at the hidden layer of the point's input blocks. -/
theorem scr_A (c : Dev nD) (i : grid0.Coords) (arg2 : Memref sig .tc .vmem S1024x200 .f32) (harg2 : arg2.IsWhole) (arg3 : Memref sig .tc .vmem S1024x200 .f32) (harg3 : arg3.IsWhole) (arg4 : Memref sig .tc .vmem S1024x1 .f32) (harg4 : arg4.IsWhole) (arg5 : Memref sig .tc .vmem S401x200 .bf16) (harg5 : arg5.IsWhole) (arg6 : Memref sig .tc .vmem S1x200 .f32) (harg6 : arg6.IsWhole) (arg7 : Memref sig .tc .vmem S200x1920 .bf16) (harg7 : arg7.IsWhole) (arg8 : Memref sig .tc .vmem S1024x1920 .f32) (harg8 : arg8.IsWhole) (arg9 : Memref sig .tc .vmem S1024x200 .f32) (harg9 : arg9.IsWhole) (hc0 : cond0_0 i)
    (x0 : Vec F S1024x200 .f32) (x1 : Vec F S1024x200 .f32) (x2 : Vec F S1024x1 .f32) (x3 : Vec F S401x200 .bf16) (x4 : Vec F S1x200 .f32) (x5 : Vec F S200x1920 .bf16) :
    sout0_A_0 c i arg2 harg2 arg3 harg3 arg4 harg4 arg5 harg5 arg6 harg6 arg7 harg7 arg8 harg8 arg9 harg9 hc0 x0 x1 x2 x3 x4 x5 = k0_pay1 x0 x1 x2 x3 x4 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz]
  simp only [View.readAt_eq_ld, harg2.read_unread, harg3.read_unread, harg4.read_unread, harg5.read_unread,
    harg6.read_unread, View.ld_unit_zero (S := S1024x200) hz, View.ld_unit_zero (S := S1024x1) hz,
    View.ld_unit_zero (S := S401x200) hz, View.ld_unit_zero (S := S1x200) hz]

/-- First point of a row block: the output tile is the product of that hidden layer with the column tile. -/
theorem out_A (c : Dev nD) (i : grid0.Coords) (arg2 : Memref sig .tc .vmem S1024x200 .f32) (harg2 : arg2.IsWhole) (arg3 : Memref sig .tc .vmem S1024x200 .f32) (harg3 : arg3.IsWhole) (arg4 : Memref sig .tc .vmem S1024x1 .f32) (harg4 : arg4.IsWhole) (arg5 : Memref sig .tc .vmem S401x200 .bf16) (harg5 : arg5.IsWhole) (arg6 : Memref sig .tc .vmem S1x200 .f32) (harg6 : arg6.IsWhole) (arg7 : Memref sig .tc .vmem S200x1920 .bf16) (harg7 : arg7.IsWhole) (arg8 : Memref sig .tc .vmem S1024x1920 .f32) (harg8 : arg8.IsWhole) (arg9 : Memref sig .tc .vmem S1024x200 .f32) (harg9 : arg9.IsWhole) (hc0 : cond0_0 i)
    (x0 : Vec F S1024x200 .f32) (x1 : Vec F S1024x200 .f32) (x2 : Vec F S1024x1 .f32) (x3 : Vec F S401x200 .bf16) (x4 : Vec F S1x200 .f32) (x5 : Vec F S200x1920 .bf16) :
    out0_A_6 c i arg2 harg2 arg3 harg3 arg4 harg4 arg5 harg5 arg6 harg6 arg7 harg7 arg8 harg8 arg9 harg9 hc0 x0 x1 x2 x3 x4 x5 = k0_pay2 (k0_pay1 x0 x1 x2 x3 x4) x5 := by
  unfold out0_A_6
  rw [View.read_writes_eq_canon _ _ _ (cover0_A_6 c i arg2 harg2 arg3 harg3 arg4 harg4 arg5 harg5 arg6 harg6 arg7 harg7 arg8 harg8 arg9 harg9 hc0 x0 x1 x2 x3 x4 x5)]
  unfold kernelRun0_A
  dsimp only
  sl_unfold_words
  rw [View.canon_unit_zero hz, View.readCov_unit_zero (S := S1024x200) _ hz]
  simp only [View.readAt_eq_ld, harg2.read_unread, harg3.read_unread, harg4.read_unread, harg5.read_unread,
    harg6.read_unread, View.ld_unit_zero (S := S1024x200) hz, View.ld_unit_zero (S := S1024x1) hz,
    View.ld_unit_zero (S := S401x200) hz, View.ld_unit_zero (S := S1x200) hz, harg7.read_unread,
    View.ld_unit_zero (S := S200x1920) hz]

/-- Any other point: the output tile is the product of what the scratch holds with the column tile. -/
theorem out_B (c : Dev nD) (i : grid0.Coords) (arg2 : Memref sig .tc .vmem S1024x200 .f32) (harg2 : arg2.IsWhole) (arg3 : Memref sig .tc .vmem S1024x200 .f32) (harg3 : arg3.IsWhole) (arg4 : Memref sig .tc .vmem S1024x1 .f32) (harg4 : arg4.IsWhole) (arg5 : Memref sig .tc .vmem S401x200 .bf16) (harg5 : arg5.IsWhole) (arg6 : Memref sig .tc .vmem S1x200 .f32) (harg6 : arg6.IsWhole) (arg7 : Memref sig .tc .vmem S200x1920 .bf16) (harg7 : arg7.IsWhole) (arg8 : Memref sig .tc .vmem S1024x1920 .f32) (harg8 : arg8.IsWhole) (arg9 : Memref sig .tc .vmem S1024x200 .f32) (harg9 : arg9.IsWhole) (hc0 : ¬cond0_0 i)
    (x0 : Vec F S1024x200 .f32) (x1 : Vec F S1024x200 .f32) (x2 : Vec F S1024x1 .f32) (x3 : Vec F S401x200 .bf16) (x4 : Vec F S1x200 .f32) (x5 : Vec F S200x1920 .bf16) (xs0 : Vec F S1024x200 .f32) :
    out0_B_6 c i arg2 harg2 arg3 harg3 arg4 harg4 arg5 harg5 arg6 harg6 arg7 harg7 arg8 harg8 arg9 harg9 hc0 x0 x1 x2 x3 x4 x5 xs0 = k0_pay2 xs0 x5 := by
  unfold out0_B_6
  rw [View.read_writes_eq_canon _ _ _ (cover0_B_6 c i arg2 harg2 arg3 harg3 arg4 harg4 arg5 harg5 arg6 harg6 arg7 harg7 arg8 harg8 arg9 harg9 hc0 x0 x1 x2 x3 x4 x5 xs0)]
  unfold kernelRun0_B
  dsimp only
  sl_unfold_words
  rw [View.canon_unit_zero hz]
  simp only [View.readAt_eq_ld, harg9.read_unread, harg7.read_unread, View.ld_unit_zero (S := S1024x200) hz,
    View.ld_unit_zero (S := S200x1920) hz]

theorem N64 : cfg0.N = 64 := N_0

/-- The first point of `t`'s row block. -/
def rowStart (t : Fin cfg0.N) : Fin cfg0.N := ⟨16 * (t.val / 16), by have h := t.isLt; have hN : cfg0.N = 64 := N64; omega⟩

/-- The hidden layer of `t`'s row block, from the input blocks at the row block's first point. -/
def hid (c : Dev nD) (t : Fin cfg0.N) : Vec F S1024x200 .f32 :=
  k0_pay1 (iblk m c 0 (rowStart t)) (iblk m c 1 (rowStart t)) (iblk m c 2 (rowStart t)) (iblk m c 3 (rowStart t)) (iblk m c 4 (rowStart t))

/-- At the first point of a row block (`t % 16 = 0`) the row block starts at `t` itself: `16 * (t / 16) = t`. -/
theorem rowStart_first (t : Fin cfg0.N) (h0 : t.val % 16 = 0) : rowStart t = t :=
  Fin.ext (by show 16 * (t.val / 16) = t.val; omega)

/-- A point that is not the first of its row block lies in the row block of the point before it:
    `(n + 1) / 16 = n / 16` when `16 ∤ n + 1`. -/
theorem rowStart_next (n : ℕ) (h : n + 1 < cfg0.N) (h0 : ¬(n + 1) % 16 = 0) :
    rowStart ⟨n + 1, h⟩ = rowStart ⟨n, Nat.lt_of_succ_lt h⟩ :=
  Fin.ext (by show 16 * ((n + 1) / 16) = 16 * (n / 16); omega)

/-- At the first point of a row block the row block's hidden layer is the one of the point's own input blocks. -/
theorem hid_first (c : Dev nD) (t : Fin cfg0.N) (h0 : t.val % 16 = 0) :
    hid m c t = k0_pay1 (iblk m c 0 t) (iblk m c 1 t) (iblk m c 2 t) (iblk m c 3 t) (iblk m c 4 t) := by
  unfold hid
  rw [rowStart_first t h0]

/-- At any other point it is the hidden layer of the point before: same row block. -/
theorem hid_next (c : Dev nD) (n : ℕ) (h : n + 1 < cfg0.N) (h0 : ¬(n + 1) % 16 = 0) :
    hid m c ⟨n + 1, h⟩ = hid m c ⟨n, Nat.lt_of_succ_lt h⟩ := by
  unfold hid
  rw [rowStart_next n h h0]

/-- A first point of a row block: the scratch is set to the row block's hidden layer, the output tile to its product
    with the point's column tile. -/
theorem at_first (c : Dev nD) (t : Fin cfg0.N) (h0 : t.val % 16 = 0) :
    outsAt0 m c t.val t.isLt = (k0_pay2 (hid m c t) (iblk m c 5 t), hid m c t) := by
  rw [outsAt0_A m c t h0]
  rw [out_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t),
    scr_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) ((hcond0_0 t).mpr h0) (iblk m c 0 t) (iblk m c 1 t) (iblk m c 2 t) (iblk m c 3 t) (iblk m c 4 t) (iblk m c 5 t),
    hid_first m c t h0]

/-- Any other point, the point before having left `s` in the scratch: the scratch still holds `s`, and the output tile
    is the product of `s` with the point's column tile. -/
theorem at_other (c : Dev nD) (t : Fin cfg0.N) (h0 : ¬t.val % 16 = 0) (s : Vec F S1024x200 .f32)
    (hs : (outsAt0 m c (t.val - 1) (Nat.lt_of_le_of_lt (Nat.sub_le _ _) t.isLt)).2 = s) :
    outsAt0 m c t.val t.isLt = (k0_pay2 s (iblk m c 5 t), s) := by
  rw [outsAt0_B m c t h0, hs]
  unfold sout0_B_0
  rw [out_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) (fun h => h0 ((hcond0_0 t).mp h)) (iblk m c 0 t) (iblk m c 1 t) (iblk m c 2 t) (iblk m c 3 t) (iblk m c 4 t) (iblk m c 5 t) s]

/-- After point `n` the output tile holds the hidden layer of its row block times the point's column tile, and the
    scratch the hidden layer of its row block. -/
theorem outs_eq (c : Dev nD) : ∀ (n : ℕ) (h : n < cfg0.N),
    outsAt0 m c n h = (k0_pay2 (hid m c ⟨n, h⟩) (iblk m c 5 ⟨n, h⟩), hid m c ⟨n, h⟩) := by
  intro n
  induction n with
  | zero => intro h; exact at_first m c ⟨0, h⟩ rfl
  | succ n ih =>
    intro h
    by_cases h0 : (n + 1) % 16 = 0
    · exact at_first m c ⟨n + 1, h⟩ h0
    · rw [hid_next m c n h h0]
      exact at_other m c ⟨n + 1, h⟩ h0 (hid m c ⟨n, Nat.lt_of_succ_lt h⟩) (congrArg Prod.snd (ih (Nat.lt_of_succ_lt h)))

end Cert.KernelIdeal.KVal

end
-- ==== Proof.KMath.lean ====
/-
  The kernel body's two payloads read at an index, over the extended reals.

  At the exact instance a change of float format is the identity and a matrix product into the zero block is the plain
  sum over the contracted axis, so with x = [tanh e | r | t] (401 columns: 200 of tanh e, 200 of r, one of t)

    k0_pay1 e r t W b (p, h) = max (∑ k < 401, x (p, k) · W (k, h) + b (0, h)) 0,
    k0_pay2 y S (p, q)       = ∑ h < 200, y (p, h) · S (h, q).
-/
import proofs.«128595_j18803366822339_1_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.KVal

open Cert.KernelIdeal Cert.KernelIdeal.Gen Cert.KernelIdeal.Facts₀

/-! ## The two matrix products read at an index

A product into the zero block is, at an output index, the sum over the dot's contraction index of the operands'
products; the contraction index has one axis, so the sum is re-indexed to the contracted extent, and the operands'
indices are named coordinate by coordinate. -/

/-- The [1024, 401] × [401, 200] product: the left operand's row coordinate is the output's row … -/
theorem lhs1_0 (j : S1024x200.Idx) (k : dot_S1024x401_S401x200_S1024x200_1_0_0_1_n_n.contr.Idx) :
    (dot_S1024x401_S401x200_S1024x200_1_0_0_1_n_n.lhsIdx j k 0).val = (j 0).val := by
  simp [DotDims.lhsIdx, dot_S1024x401_S401x200_S1024x200_1_0_0_1_n_n]; rfl

/-- … its column coordinate the contracted position … -/
theorem lhs1_1 (j : S1024x200.Idx) (k : dot_S1024x401_S401x200_S1024x200_1_0_0_1_n_n.contr.Idx) :
    (dot_S1024x401_S401x200_S1024x200_1_0_0_1_n_n.lhsIdx j k 1).val = (k ⟨0, by decide⟩).val :=
  DotDims.lhsIdx_val_of_single _ rfl j k

/-- … the right operand's row coordinate the contracted position … -/
theorem rhs1_0 (j : S1024x200.Idx) (k : dot_S1024x401_S401x200_S1024x200_1_0_0_1_n_n.contr.Idx) :
    (dot_S1024x401_S401x200_S1024x200_1_0_0_1_n_n.rhsIdx j k 0).val = (k ⟨0, by decide⟩).val :=
  DotDims.rhsIdx_val_of_single _ rfl j k

/-- … and its column coordinate the output's column. -/
theorem rhs1_1 (j : S1024x200.Idx) (k : dot_S1024x401_S401x200_S1024x200_1_0_0_1_n_n.contr.Idx) :
    (dot_S1024x401_S401x200_S1024x200_1_0_0_1_n_n.rhsIdx j k 1).val = (j 1).val := by
  simp [DotDims.rhsIdx, dot_S1024x401_S401x200_S1024x200_1_0_0_1_n_n]; rfl

/-- The first product into the zero block, read at (p, h): the plain sum over the 401 contracted columns. -/
theorem mm1_apply (A : FVec Ideal S1024x401 .bf16) (B : FVec Ideal S401x200 .bf16) (p : Fin 1024) (h : Fin 200) :
    matmul dot_S1024x401_S401x200_S1024x200_1_0_0_1_n_n none A B (constant (F := Ideal) S1024x200 .f32 0x00000000#32) (ix2 p h)
      = ∑ k : Fin 401, A (ix2 p k) * B (ix2 k h) := by
  simp only [matmul]
  rw [Ideal.matmul_constant_zero_apply,
    ← Equiv.sum_comp (contrEquiv1 dot_S1024x401_S401x200_S1024x200_1_0_0_1_n_n 401 rfl rfl).symm]
  refine Finset.sum_congr rfl fun c _ => ?_
  have c2 := contrEquiv1_symm_val dot_S1024x401_S401x200_S1024x200_1_0_0_1_n_n 401 rfl rfl c
  have l2 : dot_S1024x401_S401x200_S1024x200_1_0_0_1_n_n.lhsIdx (ix2 p h)
      ((contrEquiv1 dot_S1024x401_S401x200_S1024x200_1_0_0_1_n_n 401 rfl rfl).symm c) = ix2 p c := by
    funext ax; apply Fin.ext
    match ax with
    | ⟨0, _⟩ => exact lhs1_0 _ _
    | ⟨1, _⟩ => exact (lhs1_1 _ _).trans c2
  have r2 : dot_S1024x401_S401x200_S1024x200_1_0_0_1_n_n.rhsIdx (ix2 p h)
      ((contrEquiv1 dot_S1024x401_S401x200_S1024x200_1_0_0_1_n_n 401 rfl rfl).symm c) = ix2 c h := by
    funext ax; apply Fin.ext
    match ax with
    | ⟨0, _⟩ => exact (rhs1_0 _ _).trans c2
    | ⟨1, _⟩ => exact rhs1_1 _ _
  rw [l2, r2]

/-- The [1024, 200] × [200, 1920] product: the left operand's row coordinate is the output's row … -/
theorem lhs2_0 (j : S1024x1920.Idx) (k : dot_S1024x200_S200x1920_S1024x1920_1_0_0_1_n_n.contr.Idx) :
    (dot_S1024x200_S200x1920_S1024x1920_1_0_0_1_n_n.lhsIdx j k 0).val = (j 0).val := by
  simp [DotDims.lhsIdx, dot_S1024x200_S200x1920_S1024x1920_1_0_0_1_n_n]; rfl

/-- … its column coordinate the contracted position … -/
theorem lhs2_1 (j : S1024x1920.Idx) (k : dot_S1024x200_S200x1920_S1024x1920_1_0_0_1_n_n.contr.Idx) :
    (dot_S1024x200_S200x1920_S1024x1920_1_0_0_1_n_n.lhsIdx j k 1).val = (k ⟨0, by decide⟩).val :=
  DotDims.lhsIdx_val_of_single _ rfl j k

/-- … the right operand's row coordinate the contracted position … -/
theorem rhs2_0 (j : S1024x1920.Idx) (k : dot_S1024x200_S200x1920_S1024x1920_1_0_0_1_n_n.contr.Idx) :
    (dot_S1024x200_S200x1920_S1024x1920_1_0_0_1_n_n.rhsIdx j k 0).val = (k ⟨0, by decide⟩).val :=
  DotDims.rhsIdx_val_of_single _ rfl j k

/-- … and its column coordinate the output's column. -/
theorem rhs2_1 (j : S1024x1920.Idx) (k : dot_S1024x200_S200x1920_S1024x1920_1_0_0_1_n_n.contr.Idx) :
    (dot_S1024x200_S200x1920_S1024x1920_1_0_0_1_n_n.rhsIdx j k 1).val = (j 1).val := by
  simp [DotDims.rhsIdx, dot_S1024x200_S200x1920_S1024x1920_1_0_0_1_n_n]; rfl

/-- The second product into the zero block, read at (p, q): the plain sum over the 200 contracted columns. -/
theorem mm2_apply (A : FVec Ideal S1024x200 .bf16) (B : FVec Ideal S200x1920 .bf16) (p : Fin 1024) (h : Fin 1920) :
    matmul dot_S1024x200_S200x1920_S1024x1920_1_0_0_1_n_n none A B (constant (F := Ideal) S1024x1920 .f32 0x00000000#32) (ix2 p h)
      = ∑ k : Fin 200, A (ix2 p k) * B (ix2 k h) := by
  simp only [matmul]
  rw [Ideal.matmul_constant_zero_apply,
    ← Equiv.sum_comp (contrEquiv1 dot_S1024x200_S200x1920_S1024x1920_1_0_0_1_n_n 200 rfl rfl).symm]
  refine Finset.sum_congr rfl fun c _ => ?_
  have c2 := contrEquiv1_symm_val dot_S1024x200_S200x1920_S1024x1920_1_0_0_1_n_n 200 rfl rfl c
  have l2 : dot_S1024x200_S200x1920_S1024x1920_1_0_0_1_n_n.lhsIdx (ix2 p h)
      ((contrEquiv1 dot_S1024x200_S200x1920_S1024x1920_1_0_0_1_n_n 200 rfl rfl).symm c) = ix2 p c := by
    funext ax; apply Fin.ext
    match ax with
    | ⟨0, _⟩ => exact lhs2_0 _ _
    | ⟨1, _⟩ => exact (lhs2_1 _ _).trans c2
  have r2 : dot_S1024x200_S200x1920_S1024x1920_1_0_0_1_n_n.rhsIdx (ix2 p h)
      ((contrEquiv1 dot_S1024x200_S200x1920_S1024x1920_1_0_0_1_n_n 200 rfl rfl).symm c) = ix2 c h := by
    funext ax; apply Fin.ext
    match ax with
    | ⟨0, _⟩ => exact (rhs2_0 _ _).trans c2
    | ⟨1, _⟩ => exact rhs2_1 _ _
  rw [l2, r2]

/-! ## The payloads -/

/-- A row block's decoder input: [tanh e | r | t]. -/
def xcat (x0 x1 : Vec Ideal S1024x200 .f32) (x2 : Vec Ideal S1024x1 .f32) : FVec Ideal S1024x401 .f32 :=
  concatenate S1024x401 1 [⟨S1024x200, tanh x0⟩, ⟨S1024x200, x1⟩, ⟨S1024x1, x2⟩] Facts₀.concatenates_S1024x200_S1024x200_S1024x1_S1024x401_d1

/-- Column `k` of the decoder input: tanh e below 200, r below 400, t at 400. -/
theorem xcat_apply (x0 x1 : Vec Ideal S1024x200 .f32) (x2 : Vec Ideal S1024x1 .f32) (p : Fin 1024) (k : Fin 401) :
    xcat x0 x1 x2 (ix2 p k)
      = if h1 : k.val < 200 then Ideal.tanh (x0 (ix2 p ⟨k.val, h1⟩))
        else if h2 : k.val < 400 then x1 (ix2 p ⟨k.val - 200, by omega⟩)
        else x2 (ix2 p (0 : Fin 1)) := by
  unfold xcat
  by_cases h1 : k.val < 200
  · rw [dif_pos h1]
    -- the first piece: the elementwise tanh of e, at the same column
    show concatenate S1024x401 1 _ _ (ix2 p k) = tanh (F := Ideal) (φ := .f32) x0 (ix2 p ⟨k.val, h1⟩)
    exact concatenate_apply_piece (t := S1024x401) 1 _ _ (ix2 p k) 0 (by exact Nat.succ_pos 2) S1024x200 (tanh (F := Ideal) (φ := .f32) x0) rfl rfl 0 rfl
      (ix2 p ⟨k.val, h1⟩) (fun b hb => by match b with | ⟨0, _⟩ => rfl | ⟨1, _⟩ => exact absurd rfl hb) (Nat.zero_add _)
  · rw [dif_neg h1]
    by_cases h2 : k.val < 400
    · rw [dif_pos h2]
      -- the second piece, 200 columns in
      exact concatenate_apply_piece (t := S1024x401) 1 _ _ (ix2 p k) 1 (by exact Nat.succ_lt_succ (Nat.succ_pos 1)) S1024x200 x1 rfl rfl 200 rfl
        (ix2 p ⟨k.val - 200, by omega⟩) (fun b hb => by match b with | ⟨0, _⟩ => rfl | ⟨1, _⟩ => exact absurd rfl hb)
        (by show 200 + (k.val - 200) = k.val; omega)
    · rw [dif_neg h2]
      -- the last piece, its one column at 400
      exact concatenate_apply_piece (t := S1024x401) 1 _ _ (ix2 p k) 2 (by exact Nat.lt_succ_self 2) S1024x1 x2 rfl rfl 400 rfl
        (ix2 p (0 : Fin 1)) (fun b hb => by match b with | ⟨0, _⟩ => rfl | ⟨1, _⟩ => exact absurd rfl hb)
        (by show 400 + 0 = k.val; omega)

/-- The hidden layer at (p, h). -/
theorem pay1_apply (x0 x1 : Vec Ideal S1024x200 .f32) (x2 : Vec Ideal S1024x1 .f32) (x3 : Vec Ideal S401x200 .bf16)
    (x4 : Vec Ideal S1x200 .f32) (p : Fin 1024) (h : Fin 200) :
    k0_pay1 x0 x1 x2 x3 x4 (ix2 p h)
      = max (∑ k : Fin 401, xcat x0 x1 x2 (ix2 p k) * x3 (ix2 k h) + x4 (ix2 (0 : Fin 1) h)) 0 := by
  -- the casts to the same shape are the identity; the maximum, the sum and the two broadcasts read pointwise
  unfold k0_pay1
  simp only [shapeCast_self]
  rw [maximumf_apply, addf_apply, broadcast_apply, broadcastTo_1b_ab_apply]
  rw [shapeCast_self x0, shapeCast_self x1, shapeCast_self x2]
  -- what is left: the product of [tanh e | r | t] (its change of format the identity) with W into the zero block,
  -- plus the bias row, against the zero word
  show max (matmul dot_S1024x401_S401x200_S1024x200_1_0_0_1_n_n none
      (truncf .bf16 (xcat x0 x1 x2) Gen.bitsLt_bf16_f32) x3 (constant (F := Ideal) S1024x200 .f32 0x00000000#32) (ix2 p h)
        + x4 (ix2 (0 : Fin 1) h)) (Ideal.ofBits .f32 0x00000000#32) = _
  rw [mm1_apply, Ideal.ofBits_zero_f32]
  rfl

/-- The output tile at (p, q). -/
theorem pay2_apply (y : Vec Ideal S1024x200 .f32) (x5 : Vec Ideal S200x1920 .bf16) (p : Fin 1024) (q : Fin 1920) :
    k0_pay2 y x5 (ix2 p q) = ∑ h : Fin 200, y (ix2 p h) * x5 (ix2 h q) := by
  -- the cast to the same shape is the identity, and so is the change of format under the sum
  unfold k0_pay2
  rw [shapeCast_self, mm2_apply]
  rfl

end Cert.KernelIdeal.KVal

end
-- ==== Proof.RefTerms.lean ====
/-
  The reference's @main read as pure functions of its argument arrays, one `let` per host operation in the
  program's order (the outlined `_where`, `floor_divide` and `relu` written at their call sites):

    sem  — the entity rows of the graph layer: the two embedding tables stacked, each edge's source row
           times its relation's diagonal weights, summed into the edge's destination row, scaled by the
           in-degree norm, passed through the leaky slope 0.229…, rows 0 … 29999 kept;
    ent  — row batch[:, 0] of `sem`;   rel — row batch[:, 1] of the relation table;
    tim  — row ⌊batch[:, 3] / 24⌋ of the time table;
    tail — the decoder: relu ([tanh ent | rel | tim] · dec_Wᵀ + dec_b) · semᵀ.

  Everything is generic in the float family `F`: nothing here is specific to the extended reals.
-/
import proofs.«128595_j18803366822339_1_alg».proof.Proof.Gen.ReferenceIdeal

noncomputable section

namespace Cert.ReferenceIdeal.RefVal

open Idealize.ShloMosaic Idealize.SL.Sem Cert.ReferenceIdeal Cert.ReferenceIdeal.Facts₀

variable {F : FTy → Type} [FloatOps F]

/-- Contents of an f32 / i32 / i1 buffer of shape `s`. -/
abbrev TF (F : FTy → Type) (s : Shape) : Type := (⟨s, .f32⟩ : BufTy).Contents (Elt F)
abbrev TI (F : FTy → Type) (s : Shape) : Type := (⟨s, .i32⟩ : BufTy).Contents (Elt F)
abbrev TB (F : FTy → Type) (s : Shape) : Type := (⟨s, .i1⟩ : BufTy).Contents (Elt F)

/-- The graph layer's entity rows. -/
def sem (a0 : TF F S30000x200) (a1 : TF F S10000x200) (a4 : TF F S10x200) (a7 : TF F S40000x1)
    (a8 a9 a10 : TI F S600000) : TF F S30000x200 :=
  let v0 : TF F S40000x200 := concatenate S40000x200 0 [⟨S30000x200, a0⟩, ⟨S10000x200, a1⟩] concatenates_S30000x200_S10000x200_S40000x200_d0
  let c : TI F S_ := constantI S_ 32 0#32
  let v1 : TI F S600000 := broadcastInDim S600000 ![] bcast_S_S600000 c
  let v2 : TB F S600000 := cmpi .slt a8 v1
  let c_0 : TI F S_ := constantI S_ 32 40000#32
  let v3 : TI F S600000 := broadcastInDim S600000 ![] bcast_S_S600000 c_0
  let v4 : TI F S600000 := addi a8 v3
  let v5 : TI F S600000 := select v2 v4 a8
  let v6 : TI F S600000x1 := broadcastInDim S600000x1 ![0] bcast_S600000_S600000x1_0 v5
  let v7 : TF F S600000x200 := Host.gather gather_S40000x200_S600000x1_S600000x200_1_0_n_n_0_1_1200 v0 v6
  let c_1 : TI F S_ := constantI S_ 32 0#32
  let v8 : TI F S600000 := broadcastInDim S600000 ![] bcast_S_S600000 c_1
  let v9 : TB F S600000 := cmpi .slt a10 v8
  let c_2 : TI F S_ := constantI S_ 32 10#32
  let v10 : TI F S600000 := broadcastInDim S600000 ![] bcast_S_S600000 c_2
  let v11 : TI F S600000 := addi a10 v10
  let v12 : TI F S600000 := select v9 v11 a10
  let v13 : TI F S600000x1 := broadcastInDim S600000x1 ![0] bcast_S600000_S600000x1_0 v12
  let v14 : TF F S600000x200 := Host.gather gather_S10x200_S600000x1_S600000x200_1_0_n_n_0_1_1200 a4 v13
  let v15 : TF F S600000x200 := mulf v7 v14
  let cst : TF F S_ := constant S_ .f32 0x00000000#32
  let v16 : TF F S40000x200 := broadcastInDim S40000x200 ![] bcast_S_S40000x200 cst
  let v17 : TI F S600000x1 := broadcastInDim S600000x1 ![0] bcast_S600000_S600000x1_0 a9
  let v18 : TF F S40000x200 := Host.scatterAdd scatter_S40000x200_S600000x1_S600000x200_1_0_0_1 v16 v17 v15
  let v19 : TF F S40000x200 := broadcastInDim S40000x200 ![0, 1] bcast_S40000x1_S40000x200_0_1 a7
  let v20 : TF F S40000x200 := mulf v18 v19
  let cst_3 : TF F S_ := constant S_ .f32 0x00000000#32
  let v21 : TF F S40000x200 := broadcastInDim S40000x200 ![] bcast_S_S40000x200 cst_3
  let v22 : TB F S40000x200 := cmpf .oge v20 v21
  let cst_4 : TF F S_ := constant S_ .f32 0x3E6AAAAB#32
  let v23 : TF F S40000x200 := broadcastInDim S40000x200 ![] bcast_S_S40000x200 cst_4
  let v24 : TF F S40000x200 := mulf v23 v20
  let v25 : TF F S40000x200 := select v22 v20 v24
  extractStridedSlice S30000x200 ![0, 0] v25 slices_S40000x200_S30000x200_0_0

/-- A batch column as row numbers of a table of `n` rows: negative entries wrap once. -/
def wrapIdx (n : BitVec 32) (v : TI F S4096) : TI F S4096x1 :=
  let c : TI F S_ := constantI S_ 32 0#32
  let z : TI F S4096 := broadcastInDim S4096 ![] bcast_S_S4096 c
  let lt : TB F S4096 := cmpi .slt v z
  let cn : TI F S_ := constantI S_ 32 n
  let bn : TI F S4096 := broadcastInDim S4096 ![] bcast_S_S4096 cn
  let w : TI F S4096 := addi v bn
  let s : TI F S4096 := select lt w v
  broadcastInDim S4096x1 ![0] bcast_S4096_S4096x1_0 s

/-- The batch's entity rows of `s`. -/
def ent (s : TF F S30000x200) (a11 : TI F S4096x4) : TF F S4096x200 :=
  let v27 : TI F S4096x1 := extractStridedSlice S4096x1 ![0, 0] a11 slices_S4096x4_S4096x1_0_0
  let v28 : TI F S4096 := shapeCast S4096 v27 shapeCasts_S4096x1_S4096
  Host.gather gather_S30000x200_S4096x1_S4096x200_1_0_n_n_0_1_1200 s (wrapIdx 30000#32 v28)

/-- The batch's relation rows. -/
def rel (a2 : TF F S230x200) (a11 : TI F S4096x4) : TF F S4096x200 :=
  let v36 : TI F S4096x1 := extractStridedSlice S4096x1 ![0, 1] a11 slices_S4096x4_S4096x1_0_1
  let v37 : TI F S4096 := shapeCast S4096 v36 shapeCasts_S4096x1_S4096
  Host.gather gather_S230x200_S4096x1_S4096x200_1_0_n_n_0_1_1200 a2 (wrapIdx 230#32 v37)

/-- Floor division of a batch column by 24, as jax spells it: the truncated quotient, less one where the signs differ
    and the remainder is not zero. -/
def floorDiv24 (v46 : TI F S4096) : TI F S4096 :=
  let c_9 : TI F S_ := constantI S_ 32 24#32
  let d0 : TI F S_ := id c_9
  let d1 : TI F S4096 := broadcastInDim S4096 ![] bcast_S_S4096 d0
  let d2 : TI F S4096 := Host.divsi v46 d1
  let d3 : TI F S4096 := signi v46
  let d4 : TI F S_ := signi d0
  let d5 : TI F S4096 := broadcastInDim S4096 ![] bcast_S_S4096 d4
  let d6 : TB F S4096 := cmpi .ne d3 d5
  let d7 : TI F S4096 := broadcastInDim S4096 ![] bcast_S_S4096 d0
  let d8 : TI F S4096 := Host.remsi v46 d7
  let dc : TI F S_ := constantI S_ 32 0#32
  let d9 : TI F S4096 := broadcastInDim S4096 ![] bcast_S_S4096 dc
  let d10 : TB F S4096 := cmpi .ne d8 d9
  let d11 : TB F S4096 := andi d6 d10
  let dc_0 : TI F S_ := constantI S_ 32 1#32
  let d12 : TI F S4096 := broadcastInDim S4096 ![] bcast_S_S4096 dc_0
  let d13 : TI F S4096 := subi d2 d12
  select d11 d13 d2

/-- The batch's time rows. -/
def tim (a3 : TF F S365x1) (a11 : TI F S4096x4) : TF F S4096x1 :=
  let v45 : TI F S4096x1 := extractStridedSlice S4096x1 ![0, 3] a11 slices_S4096x4_S4096x1_0_3
  let v46 : TI F S4096 := shapeCast S4096 v45 shapeCasts_S4096x1_S4096
  Host.gather gather_S365x1_S4096x1_S4096x1_1_0_n_n_0_1_11 a3 (wrapIdx 365#32 (floorDiv24 v46))

/-- The decoder's hidden layer: relu ([tanh e | r | t] · Wᵀ + b). -/
def hidden (e r : TF F S4096x200) (t : TF F S4096x1) (a5 : TF F S200x401) (a6 : TF F S200) : TF F S4096x200 :=
  let v55 : TF F S4096x200 := Host.tanh e
  let v56 : TF F S4096x401 := concatenate S4096x401 1 [⟨S4096x200, v55⟩, ⟨S4096x200, r⟩, ⟨S4096x1, t⟩] concatenates_S4096x200_S4096x200_S4096x1_S4096x401_d1
  let v57 : TF F S401x200 := transpose S401x200 [1, 0] a5 transposes_S200x401_S401x200_1_0
  let v58 : TF F S4096x200 := Host.dotGeneral dot_S4096x401_S401x200_S4096x200_1_0_0_1_n_n none v56 v57
  let v59 : TF F S1x200 := broadcastInDim S1x200 ![1] bcast_S200_S1x200_1 a6
  let v60 : TF F S4096x200 := broadcastInDim S4096x200 ![0, 1] bcast_S1x200_S4096x200_0_1 v59
  let v61 : TF F S4096x200 := addf v58 v60
  let rc : TF F S_ := constant S_ .f32 0x00000000#32
  let r0 : TF F S4096x200 := broadcastInDim S4096x200 ![] bcast_S_S4096x200 rc
  maximumf v61 r0

/-- The decoder: the hidden layer against every entity row. -/
def tail (s : TF F S30000x200) (e r : TF F S4096x200) (t : TF F S4096x1) (a5 : TF F S200x401) (a6 : TF F S200) : TF F S4096x30000 :=
  let v62 : TF F S4096x200 := hidden e r t a5 a6
  let v63 : TF F S200x30000 := transpose S200x30000 [1, 0] s transposes_S30000x200_S200x30000_1_0
  Host.dotGeneral dot_S4096x200_S200x30000_S4096x30000_1_0_0_1_n_n none v62 v63

/-- The whole reference as one function of its twelve arguments. -/
def out (a0 : TF F S30000x200) (a1 : TF F S10000x200) (a2 : TF F S230x200) (a3 : TF F S365x1) (a4 : TF F S10x200)
    (a5 : TF F S200x401) (a6 : TF F S200) (a7 : TF F S40000x1) (a8 a9 a10 : TI F S600000) (a11 : TI F S4096x4) : TF F S4096x30000 :=
  tail (sem a0 a1 a4 a7 a8 a9 a10) (ent (sem a0 a1 a4 a7 a8 a9 a10) a11) (rel a2 a11) (tim a3 a11) a5 a6

end Cert.ReferenceIdeal.RefVal

end
-- ==== Proof.RefMath.lean ====
/-
  The reference's decoder read at an index, over the extended reals.

  With x = [tanh e | r | t] (401 columns: 200 of tanh e, 200 of r, one of t), W = dec_W (200 × 401), b = dec_b:

    hidden e r t W b (i, h) = max (∑ k < 401, x (i, k) · W (h, k) + b h) 0,
    tail s e r t W b (i, n) = ∑ h < 200, hidden e r t W b (i, h) · s (n, h).
-/
import proofs.«128595_j18803366822339_1_alg».proof.Proof.RefTerms
import Idealize.ShloMosaic.Lib.ValueIdx
import Idealize.ShloMosaic.Lib.ValueLayout
import Idealize.ShloMosaic.Lib.Pipeline.Value
import Idealize.ShloMosaic.Lib.StackMember
import Idealize.ShloMosaic.PureOps.Ideal.Laws

noncomputable section

open Idealize.ShloMosaic Idealize.ShloMosaic.ValueIdx
open scoped BigOperators

namespace Cert.ReferenceIdeal.RefVal

open Cert.ReferenceIdeal Cert.ReferenceIdeal.Facts₀

/-- The decoder's input rows: [tanh e | r | t]. -/
def xrow (e r : TF Ideal S4096x200) (t : TF Ideal S4096x1) : TF Ideal S4096x401 :=
  concatenate S4096x401 1 [⟨S4096x200, (Host.tanh (F := Ideal) (φ := .f32) e : TF Ideal S4096x200)⟩, ⟨S4096x200, r⟩, ⟨S4096x1, t⟩] Facts₀.concatenates_S4096x200_S4096x200_S4096x1_S4096x401_d1

/-- Off the concatenation axis (axis 1 of a rank-2 shape) the only other axis is axis 0: two rank-2 indices with the
    same row agree there. -/
theorem row_agrees {n0 n1 m1 : Nat} (i : Fin n0) (c : Fin m1) (k : Fin n1) :
    ∀ b : Fin (⟨2, ![n0, m1]⟩ : Shape).rank, b.cast (rfl : (⟨2, ![n0, m1]⟩ : Shape).rank = (⟨2, ![n0, n1]⟩ : Shape).rank) ≠ 1 →
      ((ix2 i c : (⟨2, ![n0, m1]⟩ : Shape).Idx) b).val = ((ix2 i k : (⟨2, ![n0, n1]⟩ : Shape).Idx) (b.cast rfl)).val :=
  fun b hb => match b, hb with
    | ⟨0, _⟩, _ => rfl
    | ⟨1, _⟩, hb => absurd rfl hb

/-- Column `k` of the decoder input: tanh e below 200, r below 400, t at 400. -/
theorem xrow_apply (e r : TF Ideal S4096x200) (t : TF Ideal S4096x1) (i : Fin 4096) (k : Fin 401) :
    xrow e r t (ix2 i k)
      = if h1 : k.val < 200 then Ideal.tanh (e (ix2 i ⟨k.val, h1⟩))
        else if h2 : k.val < 400 then r (ix2 i ⟨k.val - 200, by omega⟩)
        else t (ix2 i (0 : Fin 1)) := by
  unfold xrow
  by_cases h1 : k.val < 200
  · -- the first piece, columns 0 … 199: the host's tanh is the ideal tanh elementwise
    rw [dif_pos h1]
    refine (concatenate_apply_piece (t := S4096x401) 1 _ _ (ix2 i k) 0 (by simp) S4096x200 _ rfl rfl 0 rfl
      (ix2 i ⟨k.val, h1⟩) (row_agrees i _ k) (Nat.zero_add _)).trans rfl
  · rw [dif_neg h1]
    by_cases h2 : k.val < 400
    · -- the second piece, columns 200 … 399, after 200 columns
      rw [dif_pos h2]
      refine (concatenate_apply_piece (t := S4096x401) 1 _ _ (ix2 i k) 1 (by simp) S4096x200 _ rfl rfl 200 rfl
        (ix2 i ⟨k.val - 200, by omega⟩) (row_agrees i _ k)
        (by show 200 + (k.val - 200) = k.val; omega)).trans rfl
    · -- the third piece, the one column 400, after 400 columns
      rw [dif_neg h2]
      refine (concatenate_apply_piece (t := S4096x401) 1 _ _ (ix2 i k) 2 (by simp) S4096x1 _ rfl rfl 400 rfl
        (ix2 i (0 : Fin 1)) (row_agrees i _ k)
        (by show 400 + 0 = k.val; have := k.isLt; omega)).trans rfl

/-- The first product's dimension numbers are the plain ones, rows × contraction by contraction × columns. -/
theorem dotA_eq_plain : dot_S4096x401_S401x200_S4096x200_1_0_0_1_n_n = DotDims.plain 4096 401 200 := rfl

/-- So are the second product's. -/
theorem dotB_eq_plain : dot_S4096x200_S200x30000_S4096x30000_1_0_0_1_n_n = DotDims.plain 4096 200 30000 := rfl

/-- The first product at (i, h): the sum over the 401 contracted columns. -/
theorem dotA_apply (A : TF Ideal S4096x401) (B : TF Ideal S401x200) (i : Fin 4096) (h : Fin 200) :
    Host.dotGeneral (F := Ideal) (φ₁ := .f32) (φ₂ := .f32) dot_S4096x401_S401x200_S4096x200_1_0_0_1_n_n none A B (ix2 i h)
      = ∑ k : Fin 401, A (ix2 i k) * B (ix2 k h) := by
  rw [dotA_eq_plain]
  exact StackMember.dotGeneral_plain_apply none A B i h

/-- The second product at (i, n): the sum over the 200 contracted columns. -/
theorem dotB_apply (A : TF Ideal S4096x200) (B : TF Ideal S200x30000) (i : Fin 4096) (n : Fin 30000) :
    Host.dotGeneral (F := Ideal) (φ₁ := .f32) (φ₂ := .f32) dot_S4096x200_S200x30000_S4096x30000_1_0_0_1_n_n none A B (ix2 i n)
      = ∑ h : Fin 200, A (ix2 i h) * B (ix2 h n) := by
  rw [dotB_eq_plain]
  exact StackMember.dotGeneral_plain_apply none A B i n

/-- The bias row [200] → [1, 200] → [4096, 200] reads b h in every row. -/
theorem bias_apply (a6 : TF Ideal S200) (i : Fin 4096) (h : Fin 200) :
    broadcastInDim S4096x200 ![0, 1] bcast_S1x200_S4096x200_0_1 (broadcastInDim S1x200 ![1] bcast_S200_S1x200_1 a6) (ix2 i h)
      = a6 (ix1 h) := by
  refine (broadcastInDim_apply _ _ _ (ix2 i h) (ix2 (0 : Fin 1) h) fun a => ?_).trans
    (broadcastInDim_apply _ _ a6 (ix2 (0 : Fin 1) h) (ix1 h) fun a => ?_)
  · match a with
    | ⟨0, _⟩ => rfl
    | ⟨1, _⟩ => rfl
  · match a with
    | ⟨0, _⟩ => rfl

/-- The relu's other operand, the f32 zero broadcast to [4096, 200], is 0 everywhere. -/
theorem zero_apply (j : S4096x200.Idx) :
    broadcastInDim S4096x200 ![] bcast_S_S4096x200 (constant (F := Ideal) S_ .f32 0x00000000#32) j = (0 : EReal) := by
  refine (broadcastInDim_apply _ _ _ j ix0 fun a => a.elim0).trans ?_
  rw [constant_apply]
  exact Ideal.ofBits_zero_f32

/-- The hidden layer at (i, h). -/
theorem hidden_apply (e r : TF Ideal S4096x200) (t : TF Ideal S4096x1) (a5 : TF Ideal S200x401) (a6 : TF Ideal S200)
    (i : Fin 4096) (h : Fin 200) :
    hidden e r t a5 a6 (ix2 i h)
      = max (∑ k : Fin 401, xrow e r t (ix2 i k) * a5 (ix2 h k) + a6 (ix1 h)) 0 := by
  show max (Host.dotGeneral (F := Ideal) (φ₁ := .f32) (φ₂ := .f32) dot_S4096x401_S401x200_S4096x200_1_0_0_1_n_n none (xrow e r t)
        (transpose S401x200 [1, 0] a5 transposes_S200x401_S401x200_1_0) (ix2 i h)
      + broadcastInDim S4096x200 ![0, 1] bcast_S1x200_S4096x200_0_1 (broadcastInDim S1x200 ![1] bcast_S200_S1x200_1 a6) (ix2 i h))
      (broadcastInDim S4096x200 ![] bcast_S_S4096x200 (constant (F := Ideal) S_ .f32 0x00000000#32) (ix2 i h)) = _
  rw [dotA_apply, bias_apply, zero_apply]
  -- the transposed weights at (k, h) are the weights at (h, k)
  have hsum : ∑ k : Fin 401, xrow e r t (ix2 i k) * transpose S401x200 [1, 0] a5 transposes_S200x401_S401x200_1_0 (ix2 k h)
      = ∑ k : Fin 401, xrow e r t (ix2 i k) * a5 (ix2 h k) :=
    Finset.sum_congr rfl fun k _ => congrArg (xrow e r t (ix2 i k) * ·) (transpose_ix2_apply a5 _ k h)
  rw [hsum]

/-- The decoder's output at (i, n). -/
theorem tail_apply (s : TF Ideal S30000x200) (e r : TF Ideal S4096x200) (t : TF Ideal S4096x1) (a5 : TF Ideal S200x401)
    (a6 : TF Ideal S200) (i : Fin 4096) (n : Fin 30000) :
    tail s e r t a5 a6 (ix2 i n) = ∑ h : Fin 200, hidden e r t a5 a6 (ix2 i h) * s (ix2 n h) := by
  show Host.dotGeneral (F := Ideal) (φ₁ := .f32) (φ₂ := .f32) dot_S4096x200_S200x30000_S4096x30000_1_0_0_1_n_n none (hidden e r t a5 a6)
      (transpose S200x30000 [1, 0] s transposes_S30000x200_S200x30000_1_0) (ix2 i n) = _
  rw [dotB_apply]
  -- the transposed entity rows at (h, n) are the rows at (n, h)
  exact Finset.sum_congr rfl fun h _ => congrArg (hidden e r t a5 a6 (ix2 i h) * ·) (transpose_ix2_apply s _ h n)

end Cert.ReferenceIdeal.RefVal

end
-- ==== Proof.KArray.lean ====
/-
  From the output tiles to the output array, over the extended reals.

  Point t of the 4 × 16 grid has row block t / 16 and column tile t % 16. The entity, relation and time windows move
  with the row block (rows 1024 · (t / 16) + p), the weight and bias windows are the whole arrays, the padded entity
  matrix's window moves with the column tile (columns 1920 · (t % 16) + q), the output window with both. After point t
  the output tile is the hidden layer of the row block times the column tile; so every tile is the restriction of ONE
  function of the region's operand arrays,

    G (i, n) = ∑ h < 200, H (i, h) · S (h, n),   H (i, h) = max (∑ k < 401, x (i, k) · W (k, h) + b (0, h)) 0,

  x = [tanh e | r | t] row by row. This module reads the blocks and one tile at an index; the next one covers the array.
-/
import proofs.«128595_j18803366822339_1_alg».proof.Proof.KPieces
import proofs.«128595_j18803366822339_1_alg».proof.Proof.KMath
import proofs.«128595_j18803366822339_1_alg».proof.Proof.RefMath
import Idealize.ShloMosaic.Lib.ValueIdx
import Idealize.ShloMosaic.Lib.Pipeline.Value

noncomputable section

open Idealize.ShloMosaic Idealize.ShloMosaic.TcCoe Idealize.SL.Sem Idealize.ShloMosaic.ValueIdx
open Idealize.ShloMosaic.Pipeline (Dat)
open scoped BigOperators

namespace Cert.KernelIdeal.KVal

open Cert.KernelIdeal Cert.KernelIdeal.Gen
open Cert.ReferenceIdeal (RefVal.xrow RefVal.xrow_apply)

/-! ## The input blocks read at an index (any float family) -/

section Blocks

variable {F : FTy → Type} [FloatOps F]
variable (m : (ℓ : Loc nD τ sig) → Buf (Elt F) ℓ)

/-- The printed index maps over the grid, in closed form. -/
theorem idx_facts : ∀ t : Fin cfg0.N,
    win0_0.index t (0 : Fin 2) = t.val / 16 ∧ win0_0.index t (1 : Fin 2) = 0
    ∧ win0_1.index t (0 : Fin 2) = t.val / 16 ∧ win0_1.index t (1 : Fin 2) = 0
    ∧ win0_2.index t (0 : Fin 2) = t.val / 16 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = t.val % 16
    ∧ win0_6.index t (0 : Fin 2) = t.val / 16 ∧ win0_6.index t (1 : Fin 2) = t.val % 16 :=
  (by decide +kernel : ∀ t : Fin grid0.N, _)

theorem tN (t : Fin cfg0.N) : t.val < 64 := lt_of_lt_of_eq t.isLt N_0

/-- Row p of the entity block at point t is row 1024 · (t / 16) + p of the entity operand. -/
theorem blk0_apply (c : Dev nD) (t : Fin cfg0.N) (p : Fin 1024) (k : Fin 200) :
    (iblk m c 0 t : Vec F S1024x200 .f32) (ix2 p k)
      = V m c main_v35 (ix2 (⟨1024 * (t.val / 16) + p.val, by have := tN t; omega⟩ : Fin 4096) k) := by
  unfold iblk
  rw [View.read_apply]
  show V m c main_v35 _ = V m c main_v35 _
  congr 1
  funext a; apply Fin.ext
  obtain ⟨e0, e1, -⟩ := idx_facts t
  match a with
  | ⟨0, _⟩ => show win0_0.index t (0 : Fin 2) * 1024 + 1 * p.val = 1024 * (t.val / 16) + p.val; rw [e0]; omega
  | ⟨1, _⟩ => show win0_0.index t (1 : Fin 2) * 200 + 1 * k.val = k.val; rw [e1]; omega

/-- The same for the relation block. -/
theorem blk1_apply (c : Dev nD) (t : Fin cfg0.N) (p : Fin 1024) (k : Fin 200) :
    (iblk m c 1 t : Vec F S1024x200 .f32) (ix2 p k)
      = V m c main_v44 (ix2 (⟨1024 * (t.val / 16) + p.val, by have := tN t; omega⟩ : Fin 4096) k) := by
  unfold iblk
  rw [View.read_apply]
  show V m c main_v44 _ = V m c main_v44 _
  congr 1
  funext a; apply Fin.ext
  obtain ⟨-, -, e0, e1, -⟩ := idx_facts t
  match a with
  | ⟨0, _⟩ => show win0_1.index t (0 : Fin 2) * 1024 + 1 * p.val = 1024 * (t.val / 16) + p.val; rw [e0]; omega
  | ⟨1, _⟩ => show win0_1.index t (1 : Fin 2) * 200 + 1 * k.val = k.val; rw [e1]; omega

/-- The same for the time block (one column). -/
theorem blk2_apply (c : Dev nD) (t : Fin cfg0.N) (p : Fin 1024) (k : Fin 1) :
    (iblk m c 2 t : Vec F S1024x1 .f32) (ix2 p k)
      = V m c main_v54 (ix2 (⟨1024 * (t.val / 16) + p.val, by have := tN t; omega⟩ : Fin 4096) k) := by
  unfold iblk
  rw [View.read_apply]
  show V m c main_v54 _ = V m c main_v54 _
  congr 1
  funext a; apply Fin.ext
  obtain ⟨-, -, -, -, e0, e1, -⟩ := idx_facts t
  match a with
  | ⟨0, _⟩ => show win0_2.index t (0 : Fin 2) * 1024 + 1 * p.val = 1024 * (t.val / 16) + p.val; rw [e0]; omega
  | ⟨1, _⟩ => show win0_2.index t (1 : Fin 2) * 1 + 1 * k.val = k.val; rw [e1]; omega

/-- The weight window is the whole weight operand at every point. -/
theorem blk3_apply (c : Dev nD) (t : Fin cfg0.N) (k : Fin 401) (h : Fin 200) :
    (iblk m c 3 t : Vec F S401x200 .bf16) (ix2 k h) = V m c main_v56 (ix2 k h) := by
  unfold iblk
  rw [View.read_apply]
  show V m c main_v56 _ = V m c main_v56 _
  congr 1
  funext a; apply Fin.ext
  obtain ⟨-, -, -, -, -, -, e0, e1, -⟩ := idx_facts t
  match a with
  | ⟨0, _⟩ => show win0_3.index t (0 : Fin 2) * 401 + 1 * k.val = k.val; rw [e0]; omega
  | ⟨1, _⟩ => show win0_3.index t (1 : Fin 2) * 200 + 1 * h.val = h.val; rw [e1]; omega

/-- The bias window is the whole bias row at every point. -/
theorem blk4_apply (c : Dev nD) (t : Fin cfg0.N) (z : Fin 1) (h : Fin 200) :
    (iblk m c 4 t : Vec F S1x200 .f32) (ix2 z h) = V m c main_v57 (ix2 z h) := by
  unfold iblk
  rw [View.read_apply]
  show V m c main_v57 _ = V m c main_v57 _
  congr 1
  funext a; apply Fin.ext
  obtain ⟨-, -, -, -, -, -, -, -, e0, e1, -⟩ := idx_facts t
  match a with
  | ⟨0, _⟩ => show win0_4.index t (0 : Fin 2) * 1 + 1 * z.val = z.val; rw [e0]; omega
  | ⟨1, _⟩ => show win0_4.index t (1 : Fin 2) * 200 + 1 * h.val = h.val; rw [e1]; omega

/-- Column q of the padded entity matrix's tile at point t is column 1920 · (t % 16) + q of that operand. -/
theorem blk5_apply (c : Dev nD) (t : Fin cfg0.N) (h : Fin 200) (q : Fin 1920) :
    (iblk m c 5 t : Vec F S200x1920 .bf16) (ix2 h q)
      = V m c main_v60 (ix2 h (⟨1920 * (t.val % 16) + q.val, by omega⟩ : Fin 30720)) := by
  unfold iblk
  rw [View.read_apply]
  show V m c main_v60 _ = V m c main_v60 _
  congr 1
  funext a; apply Fin.ext
  obtain ⟨-, -, -, -, -, -, -, -, -, -, e0, e1, -⟩ := idx_facts t
  match a with
  | ⟨0, _⟩ => show win0_5.index t (0 : Fin 2) * 200 + 1 * h.val = h.val; rw [e0]; omega
  | ⟨1, _⟩ => show win0_5.index t (1 : Fin 2) * 1920 + 1 * q.val = 1920 * (t.val % 16) + q.val; rw [e1]; omega

end Blocks

/-! ## The output array -/

variable (m : (ℓ : Loc nD τ sig) → Buf (Elt Ideal) ℓ)

/-- The hidden layer of batch row i, from the region's operand arrays. -/
def Hm (c : Dev nD) (i : Fin 4096) (h : Fin 200) : EReal :=
  max (∑ k : Fin 401, RefVal.xrow (V m c main_v35) (V m c main_v44) (V m c main_v54) (ix2 i k) * V m c main_v56 (ix2 k h)
    + V m c main_v57 (ix2 (0 : Fin 1) h)) 0

/-- The output at (i, n): the hidden layer of row i against column n of the padded entity matrix. -/
def Gf (c : Dev nD) (i : Fin 4096) (n : Fin 30720) : EReal :=
  ∑ h : Fin 200, Hm m c i h * V m c main_v60 (ix2 h n)

/-- The same as contents of the output array. -/
def G (c : Dev nD) : Buf (Elt Ideal) ((c : Thread nD τ).loc main_v61) := fun i => Gf m c (i 0) (i 1)

/-- The decoder input of a row block is the rows of the whole decoder input. -/
theorem xcat_blk (c : Dev nD) (t : Fin cfg0.N) (p : Fin 1024) (k : Fin 401) :
    xcat (iblk m c 0 t) (iblk m c 1 t) (iblk m c 2 t) (ix2 p k)
      = RefVal.xrow (V m c main_v35) (V m c main_v44) (V m c main_v54)
          (ix2 (⟨1024 * (t.val / 16) + p.val, by have := tN t; omega⟩ : Fin 4096) k) := by
  rw [xcat_apply, RefVal.xrow_apply]
  by_cases h1 : k.val < 200
  · rw [dif_pos h1, dif_pos h1, blk0_apply]
  · rw [dif_neg h1, dif_neg h1]
    by_cases h2 : k.val < 400
    · rw [dif_pos h2, dif_pos h2, blk1_apply]
    · rw [dif_neg h2, dif_neg h2, blk2_apply]

/-- The hidden layer held in the scratch after point t, at (p, h): that of batch row 1024 · (t / 16) + p. -/
theorem hid_apply (c : Dev nD) (t : Fin cfg0.N) (p : Fin 1024) (h : Fin 200) :
    hid m c t (ix2 p h) = Hm m c (⟨1024 * (t.val / 16) + p.val, by have := tN t; omega⟩ : Fin 4096) h := by
  have hr : (rowStart t).val / 16 = t.val / 16 := by show 16 * (t.val / 16) / 16 = t.val / 16; omega
  have hrow : (⟨1024 * ((rowStart t).val / 16) + p.val, by have := tN (rowStart t); omega⟩ : Fin 4096)
      = ⟨1024 * (t.val / 16) + p.val, by have := tN t; omega⟩ :=
    Fin.ext (by show 1024 * ((rowStart t).val / 16) + p.val = 1024 * (t.val / 16) + p.val; omega)
  have hsum : (∑ k : Fin 401, xcat (iblk m c 0 (rowStart t)) (iblk m c 1 (rowStart t)) (iblk m c 2 (rowStart t)) (ix2 p k)
        * (iblk m c 3 (rowStart t) : Vec Ideal S401x200 .bf16) (ix2 k h))
      = ∑ k : Fin 401, RefVal.xrow (V m c main_v35) (V m c main_v44) (V m c main_v54)
          (ix2 (⟨1024 * ((rowStart t).val / 16) + p.val, by have := tN (rowStart t); omega⟩ : Fin 4096) k) * V m c main_v56 (ix2 k h) :=
    Finset.sum_congr rfl fun k _ => by rw [xcat_blk, blk3_apply]
  unfold hid Hm
  rw [pay1_apply, hsum, blk4_apply, hrow]

/-- The output tile after point t, at (p, q): G at row 1024 · (t / 16) + p, column 1920 · (t % 16) + q. -/
theorem tile_apply (c : Dev nD) (t : Fin cfg0.N) (p : Fin 1024) (q : Fin 1920) :
    k0_pay2 (hid m c t) (iblk m c 5 t) (ix2 p q)
      = Gf m c (⟨1024 * (t.val / 16) + p.val, by have := tN t; omega⟩ : Fin 4096) (⟨1920 * (t.val % 16) + q.val, by omega⟩ : Fin 30720) := by
  have hsum : (∑ h : Fin 200, hid m c t (ix2 p h) * (iblk m c 5 t : Vec Ideal S200x1920 .bf16) (ix2 h q))
      = ∑ h : Fin 200, Hm m c (⟨1024 * (t.val / 16) + p.val, by have := tN t; omega⟩ : Fin 4096) h
          * V m c main_v60 (ix2 h (⟨1920 * (t.val % 16) + q.val, by omega⟩ : Fin 30720)) :=
    Finset.sum_congr rfl fun h _ => by rw [hid_apply, blk5_apply]
  rw [pay2_apply, hsum]
  rfl

/-- Where point t's tile sits in the output array. -/
theorem emb6 (t : Fin cfg0.N) (p : Fin 1024) (q : Fin 1920) :
    ((cfg0.win 6).blk t).view.emb (ix2 p q)
      = ix2 (⟨1024 * (t.val / 16) + p.val, by have := tN t; omega⟩ : Fin 4096) (⟨1920 * (t.val % 16) + q.val, by omega⟩ : Fin 30720) := by
  obtain ⟨-, -, -, -, -, -, -, -, -, -, -, -, e0, e1⟩ := idx_facts t
  funext a; apply Fin.ext
  match a with
  | ⟨0, _⟩ => show win0_6.index t (0 : Fin 2) * 1024 + 1 * p.val = 1024 * (t.val / 16) + p.val; rw [e0]; omega
  | ⟨1, _⟩ => show win0_6.index t (1 : Fin 2) * 1920 + 1 * q.val = 1920 * (t.val % 16) + q.val; rw [e1]; omega

end Cert.KernelIdeal.KVal

end
-- ==== Proof.KFinal.lean ====
/-
  The output array after the region, over the extended reals.

  Point t of the 4 × 16 grid writes back tile (t / 16, t % 16) of the 4096 × 30720 output array, and what it writes is
  that tile of the one function G of the region's operand arrays; index (i, n) lies in the tile of point
  16 · (i / 1024) + n / 1920, so the sixty-four tiles cover the array, which therefore ends holding G.
-/
import proofs.«128595_j18803366822339_1_alg».proof.Proof.KArray

noncomputable section

open Idealize.ShloMosaic Idealize.ShloMosaic.TcCoe Idealize.SL.Sem Idealize.ShloMosaic.ValueIdx
open Idealize.ShloMosaic.Pipeline (Dat)
open scoped BigOperators

namespace Cert.KernelIdeal.KVal

open Cert.KernelIdeal Cert.KernelIdeal.Gen

variable (m : (ℓ : Loc nD τ sig) → Buf (Elt Ideal) ℓ)

/-- A tile that agrees with an array at every (p, q), read through point t's block, is what the block reads. -/
theorem cut_eq_read (t : Fin cfg0.N) (c : Dev nD) (g : Vec Ideal S1024x1920 .f32) (A : Buf (Elt Ideal) ((c : Thread nD τ).loc main_v61))
    (hg : ∀ (p : Fin 1024) (q : Fin 1920), g (ix2 p q) = A (((cfg0.win 6).blk t).view.emb (ix2 p q))) :
    (cfg0.win 6).cut (grid0.coords t) g = ((cfg0.win 6).blk t).view.read (Elt Ideal) A := by
  funext y
  have hy0 : (y 0).val < 1024 := (y 0).isLt
  have hy1 : (y 1).val < 1920 := (y 1).isLt
  have hy : y = ix2 (⟨(y 0).val, hy0⟩ : Fin 1024) (⟨(y 1).val, hy1⟩ : Fin 1920) := by
    funext a; match a with | ⟨0, _⟩ => rfl | ⟨1, _⟩ => rfl
  show g y = A (((cfg0.win 6).blk t).view.emb y)
  rw [hy]
  exact hg _ _

/-- WHAT POINT t WRITES BACK is tile t of G. -/
theorem flushed_eq (c : Dev nD) (t : Fin cfg0.N) :
    (dats m 0 c).flushed 6 t = ((cfg0.win 6).blk t).view.read (Elt Ideal) (G m c) := by
  show (cfg0.win 6).cut (grid0.coords t) ((dats m 0 c).after 6 t) = _
  rw [after0_6, outs_eq m c t.val t.isLt]
  refine cut_eq_read t c _ (G m c) fun p q => ?_
  show k0_pay2 (hid m c t) (iblk m c 5 t) (ix2 p q) = G m c (((cfg0.win 6).blk t).view.emb (ix2 p q))
  rw [emb6, tile_apply]
  rfl

/-- An index of the output array is in point t's tile iff each coordinate is in the tile's range on its axis. -/
theorem mem_blk (t : Fin cfg0.N) (i : S4096x30720.Idx) :
    i ∈ ((cfg0.win 6).blk t).view.set ↔ ∀ a : Fin 2, win0_6.index t a * S1024x1920.size a ≤ (i a).val ∧ (i a).val < win0_6.index t a * S1024x1920.size a + S1024x1920.size a := by
  show i ∈ ((View.whole main_v61).slice (win0_6.rect t)).set ↔ _
  rw [View.set_slice_whole, Rect.mem_set_unit]
  exact Iff.rfl

/-- The tiles cover the output array: (i, n) is in the tile of point 16 · (i / 1024) + n / 1920. -/
theorem cover (i : S4096x30720.Idx) : ∃ t : Fin cfg0.N, (cfg0.win 6).flush t = true ∧ i ∈ ((cfg0.win 6).blk t).view.set := by
  have hi0 : (i 0).val < 4096 := (i 0).isLt
  have hi1 : (i 1).val < 30720 := (i 1).isLt
  have hN : cfg0.N = 64 := N_0
  let t : Fin cfg0.N := ⟨16 * ((i 0).val / 1024) + (i 1).val / 1920, by omega⟩
  obtain ⟨-, -, -, -, -, -, -, -, -, -, -, -, e0, e1⟩ := idx_facts t
  have q0 : t.val / 16 = (i 0).val / 1024 := by show (16 * ((i 0).val / 1024) + (i 1).val / 1920) / 16 = _; omega
  have q1 : t.val % 16 = (i 1).val / 1920 := by show (16 * ((i 0).val / 1024) + (i 1).val / 1920) % 16 = _; omega
  refine ⟨t, flush0_6 t, ?_⟩
  rw [mem_blk]
  intro a
  match a with
  | ⟨0, _⟩ => show win0_6.index t (0 : Fin 2) * 1024 ≤ (i 0).val ∧ (i 0).val < win0_6.index t (0 : Fin 2) * 1024 + 1024; rw [e0, q0]; omega
  | ⟨1, _⟩ => show win0_6.index t (1 : Fin 2) * 1920 ≤ (i 1).val ∧ (i 1).val < win0_6.index t (1 : Fin 2) * 1920 + 1920; rw [e1, q1]; omega

/-- THE OUTPUT ARRAY after the region is G. -/
theorem final (c : Dev nD) : (dats m 0 c).arrAt 6 cfg0.N = G m c :=
  (dats m 0 c).arrAt_eq_of_cover 6 (G m c) (fun t _ => flushed_eq m c t) cover

end Cert.KernelIdeal.KVal

end
-- ==== Proof.KHost.lean ====
/-
  What the kernel region finds in its six operand arrays, as functions of the program's arguments (any float family).

  Before the region @main runs the same graph layer and the same three lookups as the reference — the same operations
  on the same literals — so the entity, relation and time blocks the region stages are the reference's own functions
  `ent (sem …)`, `rel`, `tim` of the arguments; the weight operand is dec_W transposed and cut to bf16, the bias dec_b
  as a row, and the last operand the entity rows transposed, padded with 720 zero columns and cut to bf16.
-/
import proofs.«128595_j18803366822339_1_alg».proof.Proof.Gen.KernelIdeal.Frame
import proofs.«128595_j18803366822339_1_alg».proof.Proof.RefTerms
import Idealize.ShloMosaic.Lib.StableHlo.Run

noncomputable section

open Idealize.ShloMosaic Idealize.ShloMosaic.TcCoe Idealize.SL.Sem Idealize.ShloMosaic.StableHlo

namespace Cert.KernelIdeal.KVal

open Cert.KernelIdeal Cert.KernelIdeal.Gen
open Cert.ReferenceIdeal (RefVal.sem RefVal.ent RefVal.rel RefVal.tim)

variable {F : FTy → Type} [FloatOps F]
variable (m : (ℓ : Loc nD τ sig) → Buf (Elt F) ℓ)

/-- The graph layer's entity rows, of the kernel program's own arguments. -/
abbrev semK (c : Dev nD) : (⟨S30000x200, .f32⟩ : BufTy).Contents (Elt F) :=
  RefVal.sem (m ((c : Thread nD τ).loc main_arg0)) (m ((c : Thread nD τ).loc main_arg1)) (m ((c : Thread nD τ).loc main_arg4))
    (m ((c : Thread nD τ).loc main_arg7)) (m ((c : Thread nD τ).loc main_arg8)) (m ((c : Thread nD τ).loc main_arg9))
    (m ((c : Thread nD τ).loc main_arg10))

/-- The contents at the region's entry, stretch by stretch. -/
theorem V0_cut (c : Dev nD) :
    V0 m c = after hostOps0_6 (after hostOps0_5 (after hostOps0_4 (after hostOps0_3 (after hostOps0_2 (after hostOps0_1
      (after hostOps0 (fun b => m (c, b)))))))) := by
  unfold V0
  simp only [List.flatten_cons, List.flatten_nil, List.append_nil, StableHlo.after_append]

/-! ## One stretch at a time, over any contents `X` it starts from -/

section Stretch
variable (X : Valuation τ sig (Elt F))

/-- The buffers written by stretch 0 (the graph layer up to the leaky slope's two branches). -/
abbrev W0 : List (Ref sig .tc) := [main_v0, main_c, main_v1, main_v2, main_c_0, main_v3, main_v4, main_v5, main_v6, main_v7, main_c_1, main_v8, main_v9, main_c_2, main_v10, main_v11, main_v12, main_v13, main_v14, main_v15, main_cst, main_v16, main_v17, main_v18, main_v19, main_v20, main_cst_3, main_v21, main_v22, main_cst_4, main_v23, main_v24]

theorem writes0 : (hostOps0 : List (HloOp τ sig (Elt F))).Forall fun op => op.writes ⊆ (W0.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- Stretch 0 leaves every other buffer as it found it. -/
theorem keep0 (r : Ref sig .tc) (h : r ∉ W0) : after hostOps0 X (Proc.devRef .tc r) = X (Proc.devRef .tc r) :=
  StableHlo.after_of_writes_sub hostOps0 X writes0 h

/-- The buffers written by stretch 1 (the leaky slope's select). -/
abbrev W1 : List (Ref sig .tc) := [main_v25]

theorem writes1 : (hostOps0_1 : List (HloOp τ sig (Elt F))).Forall fun op => op.writes ⊆ (W1.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]; exact List.mem_map_of_mem (by decide)

/-- Stretch 1 leaves every other buffer as it found it. -/
theorem keep1 (r : Ref sig .tc) (h : r ∉ W1) : after hostOps0_1 X (Proc.devRef .tc r) = X (Proc.devRef .tc r) :=
  StableHlo.after_of_writes_sub hostOps0_1 X writes1 h

/-- The buffers written by stretch 2 (the slice of the entity rows and the entity and relation lookups). -/
abbrev W2 : List (Ref sig .tc) := [main_v26, main_v27, main_v28, main_c_5, main_v29, main_v30, main_c_6, main_v31, main_v32, main_v33, main_v34, main_v35, main_v36, main_v37, main_c_7, main_v38, main_v39, main_c_8, main_v40, main_v41, main_v42, main_v43, main_v44, main_v45, main_v46, main_c_9]

theorem writes2 : (hostOps0_2 : List (HloOp τ sig (Elt F))).Forall fun op => op.writes ⊆ (W2.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- Stretch 2 leaves every other buffer as it found it. -/
theorem keep2 (r : Ref sig .tc) (h : r ∉ W2) : after hostOps0_2 X (Proc.devRef .tc r) = X (Proc.devRef .tc r) :=
  StableHlo.after_of_writes_sub hostOps0_2 X writes2 h

/-- The buffers written by stretch 3 (the floor division by 24). -/
abbrev W3 : List (Ref sig .tc) := [main_call1_v0, main_call1_v1, main_call1_v2, main_call1_v3, main_call1_v4, main_call1_v5, main_call1_v6, main_call1_v7, main_call1_v8, main_call1_c, main_call1_v9, main_call1_v10, main_call1_v11, main_call1_c_0, main_call1_v12, main_call1_v13, main_v47]

theorem writes3 : (hostOps0_3 : List (HloOp τ sig (Elt F))).Forall fun op => op.writes ⊆ (W3.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- Stretch 3 leaves every other buffer as it found it. -/
theorem keep3 (r : Ref sig .tc) (h : r ∉ W3) : after hostOps0_3 X (Proc.devRef .tc r) = X (Proc.devRef .tc r) :=
  StableHlo.after_of_writes_sub hostOps0_3 X writes3 h

/-- The buffers written by stretch 4 (the time lookup and the operands' transposes and casts). -/
abbrev W4 : List (Ref sig .tc) := [main_c_10, main_v48, main_v49, main_c_11, main_v50, main_v51, main_v52, main_v53, main_v54, main_v55, main_v56, main_v57, main_v58, main_c_12]

theorem writes4 : (hostOps0_4 : List (HloOp τ sig (Elt F))).Forall fun op => op.writes ⊆ (W4.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- Stretch 4 leaves every other buffer as it found it. -/
theorem keep4 (r : Ref sig .tc) (h : r ∉ W4) : after hostOps0_4 X (Proc.devRef .tc r) = X (Proc.devRef .tc r) :=
  StableHlo.after_of_writes_sub hostOps0_4 X writes4 h

/-- The buffers written by stretch 5 (the padding). -/
abbrev W5 : List (Ref sig .tc) := [main_call2_v0, main_v59]

theorem writes5 : (hostOps0_5 : List (HloOp τ sig (Elt F))).Forall fun op => op.writes ⊆ (W5.map (Proc.devRef (τ := τ) .tc)).toFinset := by
  simp only [List.Forall]
  repeat' apply And.intro
  all_goals (simp only [StableHlo.nullary_writes, StableHlo.unary_writes, StableHlo.binary_writes, StableHlo.ternary_writes, StableHlo.reshape_writes, Finset.singleton_subset_iff, List.mem_toFinset]; exact List.mem_map_of_mem (by decide))

/-- Stretch 5 leaves every other buffer as it found it. -/
theorem keep5 (r : Ref sig .tc) (h : r ∉ W5) : after hostOps0_5 X (Proc.devRef .tc r) = X (Proc.devRef .tc r) :=
  StableHlo.after_of_writes_sub hostOps0_5 X writes5 h

/-- The buffers written by stretch 6 (the last cast). -/
abbrev W6 : List (Ref sig .tc) := [main_v60]

theorem writes6 : (hostOps0_6 : List (HloOp τ sig (Elt F))).Forall fun op => op.writes ⊆ (W6.map (Proc.devRef (τ := τ) .tc)).toFinset := by
  simp only [List.Forall]
  simp only [StableHlo.nullary_writes, StableHlo.unary_writes, StableHlo.binary_writes, StableHlo.ternary_writes, StableHlo.reshape_writes, Finset.singleton_subset_iff, List.mem_toFinset]; exact List.mem_map_of_mem (by decide)

/-- Stretch 6 leaves every other buffer as it found it. -/
theorem keep6 (r : Ref sig .tc) (h : r ∉ W6) : after hostOps0_6 X (Proc.devRef .tc r) = X (Proc.devRef .tc r) :=
  StableHlo.after_of_writes_sub hostOps0_6 X writes6 h

/-! ## What each stretch writes, as a function of what it reads -/

/-- Stretches 0 and 1, then the slice: the graph layer's entity rows of the arguments. -/
theorem s01_sem : extractStridedSlice S30000x200 ![0, 0] (after hostOps0_1 (after hostOps0 X) (Proc.devRef .tc main_v25)) Facts₀.slices_S40000x200_S30000x200_0_0
    = RefVal.sem (X (Proc.devRef .tc main_arg0)) (X (Proc.devRef .tc main_arg1)) (X (Proc.devRef .tc main_arg4)) (X (Proc.devRef .tc main_arg7))
        (X (Proc.devRef .tc main_arg8)) (X (Proc.devRef .tc main_arg9)) (X (Proc.devRef .tc main_arg10)) := by
  after_results_simp <;> (try simp only [TRef.ofBuf, TRef.toBuf, cast_eq]) <;> rfl

theorem s2_v26 : after hostOps0_2 X (Proc.devRef .tc main_v26)
    = extractStridedSlice S30000x200 ![0, 0] (X (Proc.devRef .tc main_v25)) Facts₀.slices_S40000x200_S30000x200_0_0 := by
  after_results_simp <;> (try simp only [TRef.ofBuf, TRef.toBuf, cast_eq]) <;> rfl

theorem s2_v35 : after hostOps0_2 X (Proc.devRef .tc main_v35)
    = RefVal.ent (extractStridedSlice S30000x200 ![0, 0] (X (Proc.devRef .tc main_v25)) Facts₀.slices_S40000x200_S30000x200_0_0) (X (Proc.devRef .tc main_arg11)) := by
  after_results_simp <;> (try simp only [TRef.ofBuf, TRef.toBuf, cast_eq]) <;> rfl

theorem s2_v44 : after hostOps0_2 X (Proc.devRef .tc main_v44) = RefVal.rel (X (Proc.devRef .tc main_arg2)) (X (Proc.devRef .tc main_arg11)) := by
  after_results_simp <;> (try simp only [TRef.ofBuf, TRef.toBuf, cast_eq]) <;> rfl

theorem s2_v46 : after hostOps0_2 X (Proc.devRef .tc main_v46)
    = shapeCast S4096 (extractStridedSlice S4096x1 ![0, 3] (X (Proc.devRef .tc main_arg11)) Facts₀.slices_S4096x4_S4096x1_0_3) Facts₀.shapeCasts_S4096x1_S4096 := by
  after_results_simp <;> (try simp only [TRef.ofBuf, TRef.toBuf, cast_eq]) <;> rfl

theorem s2_c9 : after hostOps0_2 X (Proc.devRef .tc main_c_9) = constantI S_ 32 24#32 := by
  after_results_simp <;> (try simp only [TRef.ofBuf, TRef.toBuf, cast_eq]) <;> rfl

/-- Stretch 3 is the floor division by the constant it is handed, which stretch 2 set to 24. -/
theorem s3_v47 (hc : X (Proc.devRef .tc main_c_9) = constantI S_ 32 24#32) :
    after hostOps0_3 X (Proc.devRef .tc main_v47) = Cert.ReferenceIdeal.RefVal.floorDiv24 (X (Proc.devRef .tc main_v46)) := by
  after_results_simp
  rw [hc]
  (try simp only [TRef.ofBuf, TRef.toBuf, cast_eq]) <;> rfl

theorem s4_v54 : after hostOps0_4 X (Proc.devRef .tc main_v54)
    = Host.gather gather_S365x1_S4096x1_S4096x1_1_0_n_n_0_1_11 (X (Proc.devRef .tc main_arg3)) (Cert.ReferenceIdeal.RefVal.wrapIdx 365#32 (X (Proc.devRef .tc main_v47))) := by
  after_results_simp <;> (try simp only [TRef.ofBuf, TRef.toBuf, cast_eq]) <;> rfl

theorem s4_v56 : after hostOps0_4 X (Proc.devRef .tc main_v56)
    = truncf .bf16 (transpose S401x200 [1, 0] (X (Proc.devRef .tc main_arg5)) Facts₀.transposes_S200x401_S401x200_1_0) Facts₀.bitsLt_bf16_f32 := by
  after_results_simp <;> (try simp only [TRef.ofBuf, TRef.toBuf, cast_eq]) <;> rfl

theorem s4_v57 : after hostOps0_4 X (Proc.devRef .tc main_v57)
    = shapeCast S1x200 (X (Proc.devRef .tc main_arg6)) Facts₀.shapeCasts_S200_S1x200 := by
  after_results_simp <;> (try simp only [TRef.ofBuf, TRef.toBuf, cast_eq]) <;> rfl

theorem s4_v58 : after hostOps0_4 X (Proc.devRef .tc main_v58)
    = transpose S200x30000 [1, 0] (X (Proc.devRef .tc main_v26)) Facts₀.transposes_S30000x200_S200x30000_1_0 := by
  after_results_simp <;> (try simp only [TRef.ofBuf, TRef.toBuf, cast_eq]) <;> rfl

theorem s4_c12 : after hostOps0_4 X (Proc.devRef .tc main_c_12) = constantI S_ 32 0#32 := by
  after_results_simp <;> (try simp only [TRef.ofBuf, TRef.toBuf, cast_eq]) <;> rfl

theorem s5_v59 : after hostOps0_5 X (Proc.devRef .tc main_v59)
    = pad S200x30720 ![0, 0] ![0, 720] ![0, 0] (X (Proc.devRef .tc main_v58)) (sitofp (F := F) .f32 (X (Proc.devRef .tc main_c_12)))
        Facts₀.pads_S200x30000_S200x30720_000_07200 Facts₀.h_S_ := by
  after_results_simp <;> (try simp only [TRef.ofBuf, TRef.toBuf, cast_eq]) <;> rfl

theorem s6_v60 : after hostOps0_6 X (Proc.devRef .tc main_v60) = truncf .bf16 (X (Proc.devRef .tc main_v59)) Facts₀.bitsLt_bf16_f32 := by
  after_results_simp <;> (try simp only [TRef.ofBuf, TRef.toBuf, cast_eq]) <;> rfl

end Stretch

/-! ## The six operands -/

theorem V35_eq (c : Dev nD) : V m c main_v35 = RefVal.ent (semK m c) (m ((c : Thread nD τ).loc main_arg11)) := by
  show V0 m c (Proc.devRef .tc main_v35) = _
  rw [V0_cut, keep6 _ main_v35 (by decide), keep5 _ main_v35 (by decide), keep4 _ main_v35 (by decide), keep3 _ main_v35 (by decide), s2_v35, s01_sem, keep1 _ main_arg11 (by decide), keep0 _ main_arg11 (by decide)]

theorem V44_eq (c : Dev nD) :
    V m c main_v44 = RefVal.rel (m ((c : Thread nD τ).loc main_arg2)) (m ((c : Thread nD τ).loc main_arg11)) := by
  show V0 m c (Proc.devRef .tc main_v44) = _
  rw [V0_cut, keep6 _ main_v44 (by decide), keep5 _ main_v44 (by decide), keep4 _ main_v44 (by decide), keep3 _ main_v44 (by decide), s2_v44, keep1 _ main_arg2 (by decide), keep0 _ main_arg2 (by decide), keep1 _ main_arg11 (by decide), keep0 _ main_arg11 (by decide)]

theorem V54_eq (c : Dev nD) :
    V m c main_v54 = RefVal.tim (m ((c : Thread nD τ).loc main_arg3)) (m ((c : Thread nD τ).loc main_arg11)) := by
  show V0 m c (Proc.devRef .tc main_v54) = _
  rw [V0_cut, keep6 _ main_v54 (by decide), keep5 _ main_v54 (by decide), s4_v54, s3_v47 _ (s2_c9 _), s2_v46, keep3 _ main_arg3 (by decide), keep2 _ main_arg3 (by decide), keep1 _ main_arg3 (by decide), keep0 _ main_arg3 (by decide), keep1 _ main_arg11 (by decide), keep0 _ main_arg11 (by decide)]
  rfl

theorem V56_eq (c : Dev nD) :
    V m c main_v56 = truncf .bf16 (transpose S401x200 [1, 0] (m ((c : Thread nD τ).loc main_arg5)) Facts₀.transposes_S200x401_S401x200_1_0) Facts₀.bitsLt_bf16_f32 := by
  show V0 m c (Proc.devRef .tc main_v56) = _
  rw [V0_cut, keep6 _ main_v56 (by decide), keep5 _ main_v56 (by decide), s4_v56, keep3 _ main_arg5 (by decide), keep2 _ main_arg5 (by decide), keep1 _ main_arg5 (by decide), keep0 _ main_arg5 (by decide)]

theorem V57_eq (c : Dev nD) :
    V m c main_v57 = shapeCast S1x200 (m ((c : Thread nD τ).loc main_arg6)) Facts₀.shapeCasts_S200_S1x200 := by
  show V0 m c (Proc.devRef .tc main_v57) = _
  rw [V0_cut, keep6 _ main_v57 (by decide), keep5 _ main_v57 (by decide), s4_v57, keep3 _ main_arg6 (by decide), keep2 _ main_arg6 (by decide), keep1 _ main_arg6 (by decide), keep0 _ main_arg6 (by decide)]

theorem V60_eq (c : Dev nD) :
    V m c main_v60 = truncf .bf16 (pad S200x30720 ![0, 0] ![0, 720] ![0, 0]
        (transpose S200x30000 [1, 0] (semK m c) Facts₀.transposes_S30000x200_S200x30000_1_0)
        (sitofp (F := F) .f32 (constantI S_ 32 0#32)) Facts₀.pads_S200x30000_S200x30720_000_07200 Facts₀.h_S_) Facts₀.bitsLt_bf16_f32 := by
  show V0 m c (Proc.devRef .tc main_v60) = _
  rw [V0_cut, s6_v60, s5_v59, s4_v58, s4_c12, keep3 _ main_v26 (by decide), s2_v26, s01_sem]

end Cert.KernelIdeal.KVal

end
-- ==== Proof.KOut.lean ====
/-
  The kernel program's result is the reference's function of its arguments, over the extended reals.

  The output array after the region is G (4096 × 30720). The three kernel-only operands read at an index are the
  arguments re-laid: the weight operand at (k, h) is dec_W at (h, k), the bias row at (0, h) is dec_b at h, and the
  padded entity matrix at (h, n), for a column n < 30000 inside the unpadded part, is the entity rows `sem` at (n, h);
  the format changes are the identity. So inside the first 30000 columns G is the reference's decoder, sum for sum.
-/
import proofs.«128595_j18803366822339_1_alg».proof.Proof.KArray
import proofs.«128595_j18803366822339_1_alg».proof.Proof.KHost
import proofs.«128595_j18803366822339_1_alg».proof.Proof.RefMath
import Idealize.ShloMosaic.Lib.KernelVsHost
import Idealize.ShloMosaic.Lib.ValueLayout
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)
open scoped BigOperators

namespace Cert.KernelIdeal.KVal

open Cert.KernelIdeal Cert.KernelIdeal.Gen
open Cert.ReferenceIdeal (RefVal.out RefVal.tail RefVal.hidden RefVal.xrow RefVal.sem RefVal.ent RefVal.rel RefVal.tim RefVal.tail_apply RefVal.hidden_apply)

variable (m : (ℓ : Loc nD τ sig) → Buf (Elt Ideal) ℓ)

/-- The weight operand at (k, h) is dec_W at (h, k). -/
theorem V56_apply (c : Dev nD) (k : Fin 401) (h : Fin 200) :
    V m c main_v56 (ix2 k h) = m ((c : Thread nD τ).loc main_arg5) (ix2 h k) := by
  rw [V56_eq]
  -- the format change is the identity on extended reals; the transpose swaps the coordinates
  exact (truncf_apply (φ := .f32) (ψ := .bf16) _ _ _).trans (transpose_ix2_apply (m ((c : Thread nD τ).loc main_arg5)) _ k h)

/-- The bias row at (0, h) is dec_b at h. -/
theorem V57_apply (c : Dev nD) (h : Fin 200) :
    V m c main_v57 (ix2 (0 : Fin 1) h) = m ((c : Thread nD τ).loc main_arg6) (ix1 h) := by
  rw [V57_eq]
  -- [200] cast to [1, 200]: the same row-major position
  exact shapeCast_a_1a_apply (m ((c : Thread nD τ).loc main_arg6)) _ (0 : Fin 1) h

/-- The padded entity matrix at (h, n), n < 30000, is the entity rows at (n, h). -/
theorem V60_apply (c : Dev nD) (h : Fin 200) (n : Fin 30000) :
    V m c main_v60 (ix2 h (⟨n.val, by omega⟩ : Fin 30720)) = semK m c (ix2 n h) := by
  rw [V60_eq]
  -- the format change is the identity; column n < 30000 is inside the operand of the padding (no low padding, no
  -- interior padding), where the padded array is the operand; the transpose swaps the coordinates
  refine (truncf_apply (φ := .f32) (ψ := .bf16) _ _ _).trans ?_
  refine (pad_apply_of_inside _ _ _ _ _ _ _ _ (ix2 h n) fun a => ?_).trans (transpose_ix2_apply (semK m c) _ h n)
  match a with
  | ⟨0, _⟩ => show h.val = 0 + h.val * (0 + 1); omega
  | ⟨1, _⟩ => show n.val = 0 + n.val * (0 + 1); omega

/-- The reference's function of the kernel program's own arguments. -/
abbrev outK (c : Dev nD) : (⟨S4096x30000, .f32⟩ : BufTy).Contents (Elt Ideal) :=
  RefVal.out (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11))

/-- The hidden layer the kernel computes is the reference's. -/
theorem Hm_eq (c : Dev nD) (i : Fin 4096) (h : Fin 200) :
    Hm m c i h = RefVal.hidden (RefVal.ent (semK m c) (m ((c : Thread nD τ).loc main_arg11)))
      (RefVal.rel (m ((c : Thread nD τ).loc main_arg2)) (m ((c : Thread nD τ).loc main_arg11)))
      (RefVal.tim (m ((c : Thread nD τ).loc main_arg3)) (m ((c : Thread nD τ).loc main_arg11)))
      (m ((c : Thread nD τ).loc main_arg5)) (m ((c : Thread nD τ).loc main_arg6)) (ix2 i h) := by
  unfold Hm
  rw [V35_eq, V44_eq, V54_eq, RefVal.hidden_apply, V57_apply]
  -- summand by summand: the weight operand at (k, h) is dec_W at (h, k)
  have hsum : (∑ k : Fin 401, RefVal.xrow (RefVal.ent (semK m c) (m ((c : Thread nD τ).loc main_arg11)))
        (RefVal.rel (m ((c : Thread nD τ).loc main_arg2)) (m ((c : Thread nD τ).loc main_arg11)))
        (RefVal.tim (m ((c : Thread nD τ).loc main_arg3)) (m ((c : Thread nD τ).loc main_arg11))) (ix2 i k) * V m c main_v56 (ix2 k h))
      = ∑ k : Fin 401, RefVal.xrow (RefVal.ent (semK m c) (m ((c : Thread nD τ).loc main_arg11)))
        (RefVal.rel (m ((c : Thread nD τ).loc main_arg2)) (m ((c : Thread nD τ).loc main_arg11)))
        (RefVal.tim (m ((c : Thread nD τ).loc main_arg3)) (m ((c : Thread nD τ).loc main_arg11))) (ix2 i k)
          * m ((c : Thread nD τ).loc main_arg5) (ix2 h k) :=
    Finset.sum_congr rfl fun k _ => by rw [V56_apply]
  rw [hsum]

/-- The first 30000 columns of G are the reference's result. -/
theorem G_slice (c : Dev nD) :
    extractStridedSlice S4096x30000 ![0, 0] (G m c) Facts₀.slices_S4096x30720_S4096x30000_0_0 = outK m c := by
  funext j
  obtain ⟨i, n, rfl⟩ : ∃ (i : Fin 4096) (n : Fin 30000), j = ix2 i n := ⟨j 0, j 1, eq_ix2 j⟩
  -- the slice starts at (0, 0): it reads G at the same row and column
  refine (extractStridedSlice_apply _ _ _ (ix2 i n) (ix2 i (⟨n.val, by omega⟩ : Fin 30720)) fun a => ?_).trans ?_
  · match a with
    | ⟨0, _⟩ => show i.val = 0 + i.val; omega
    | ⟨1, _⟩ => show n.val = 0 + n.val; omega
  show Gf m c i (⟨n.val, _⟩ : Fin 30720)
    = RefVal.tail (semK m c) (RefVal.ent (semK m c) (m ((c : Thread nD τ).loc main_arg11)))
        (RefVal.rel (m ((c : Thread nD τ).loc main_arg2)) (m ((c : Thread nD τ).loc main_arg11)))
        (RefVal.tim (m ((c : Thread nD τ).loc main_arg3)) (m ((c : Thread nD τ).loc main_arg11)))
        (m ((c : Thread nD τ).loc main_arg5)) (m ((c : Thread nD τ).loc main_arg6)) (ix2 i n)
  rw [RefVal.tail_apply]
  unfold Gf
  -- summand by summand: the same hidden layer, and the padded entity matrix at (h, n) is the entity rows at (n, h)
  exact Finset.sum_congr rfl fun h _ => by rw [Hm_eq, V60_apply]

end Cert.KernelIdeal.KVal

end
-- ==== Proof.KRun.lean ====
/-
  The kernel program's run, over the extended reals: after the region the output array holds G, the program's last
  operation keeps its first 30000 columns, and those are the reference's function of the arguments.
-/
import proofs.«128595_j18803366822339_1_alg».proof.Proof.KFinal
import proofs.«128595_j18803366822339_1_alg».proof.Proof.KOut
import Idealize.ShloMosaic.Lib.StableHlo.Run

noncomputable section

open Idealize.ShloMosaic Idealize.ShloMosaic.TcCoe Idealize.SL.Sem Idealize.ShloMosaic.ValueIdx Idealize.ShloMosaic.StableHlo
open Idealize.ShloMosaic.Pipeline (Dat)

namespace Cert.KernelIdeal.KVal

open Cert.KernelIdeal Cert.KernelIdeal.Gen

variable (m : (ℓ : Loc nD τ sig) → Buf (Elt Ideal) ℓ)

/-- The program's last operation leaves the result buffer at the reference's function of the arguments. -/
theorem W62 (c : Dev nD) :
    Pipeline.afterTail₀ cfgs (dats m) 0 (V0 m) [hostOps1] c main_v62 = outK m c := by
  have hA : Pipeline.withArrays (cfgs 0).spec c (V0 m c) (fun w => (dats m 0 c).arrAt w (cfgs 0).N) (Proc.devRef .tc main_v61) = G m c :=
    (Pipeline.withArrays_arr spec0 launch0.win.arr_inj c _ _ 6).trans (final m c)
  unfold Pipeline.afterTail₀
  show StableHlo.after hostOps1 _ (Proc.devRef .tc main_v62) = _
  after_results
  rw [hA]
  exact G_slice m c

/-- Every run of the idealized kernel program ends with its result at the reference's function of the arguments, the
    arguments unchanged. -/
theorem run (ρ : Dev nD → PrngReg) :
    θ_run defs (onTc (τ := τ) (main (F := Ideal))) ⟨m, fun _ => 0, ρ⟩ fun r => ∀ c : Dev nD,
      r.2.mem ((c.tc : Thread nD τ).loc main_v62) = outK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨((h c).2 main_v62 (Pipeline.mem_restRefs_of main_v62 (by decide) (by decide))).trans (W62 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩) (run_main m ρ)

end Cert.KernelIdeal.KVal

end
-- ==== Proof.LibNary3.lean ====
/-
  A general lemma about host operations: the result of an n-ary operation over a LITERAL family of THREE
  references (a concatenation of three operands) with each operand's contents read at its own reference,
  so that rewriting can go on inside the operands. The four-reference form is in the library; this is the
  three-reference one, proved the same way.
-/
import Idealize.ShloMosaic.Lib.StableHlo.Run

namespace Idealize.ShloMosaic.StableHlo

open Idealize.ShloMosaic

variable {τ : Topo} {sig : RefSig} {Val : EltTy → Type} {x a b y : Ref sig .tc}

/-- The result buffer of an operation over the three literal references `x`, `a`, `b` holds the operation's
    function of the three operands' contents, each read at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same, with the result reference un-indexed for a simp pass. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

end Idealize.ShloMosaic.StableHlo
-- ==== Proof.RefRun.lean ====
/-
  The reference's run. @main is a straight line of ninety-seven host operations once its three outlined functions
  (`_where`, `floor_divide` with its own `_where_0`, `relu`) are written at their call sites; every weakly fair
  execution of it terminates with each buffer at the fold of the operations' results over the launch contents.
  The line is cut where the value's functions cut — the graph layer's entity rows, the batch's entity, relation and
  time rows, the decoder — and each stretch is read over ANY contents before it: its last result is the
  corresponding function of what it reads, and every buffer it does not write is as it was. Chained from the last
  stretch back, the result buffer holds `RefVal.out` of the arguments' launch contents, and no stretch writes an
  argument.
-/
import proofs.«128595_j18803366822339_1_alg».proof.Proof.RefTerms
import proofs.«128595_j18803366822339_1_alg».proof.Proof.LibNary3
import Idealize.ShloMosaic.Lib.StableHlo.Run
import Idealize.ShloMosaic.Lib.Pipeline.Frame

noncomputable section

namespace Cert.ReferenceIdeal.RefRun

open Cert.ReferenceIdeal Cert.ReferenceIdeal.Facts₀ Idealize.ShloMosaic Idealize.SL.Sem Idealize.ShloMosaic.StableHlo

variable {F : FTy → Type} [FloatOps F]

/-! ## The operations -/

/-- The graph layer: the stacked tables, the two index wraps and gathers, the product, the scatter-add, the
    in-degree scaling, the leaky slope (the outlined `_where` is its one select), rows 0 … 29999. -/
abbrev opsSem : List (HloOp τ sig (Elt F)) :=
  [ StableHlo.binary main_arg0 main_arg1 main_v0 ((fun a b => concatenate S40000x200 0 [⟨S30000x200, a⟩, ⟨S10000x200, b⟩] concatenates_S30000x200_S10000x200_S40000x200_d0) : (⟨S30000x200, .f32⟩ : BufTy).Contents (Elt F) → (⟨S10000x200, .f32⟩ : BufTy).Contents (Elt F) → (⟨S40000x200, .f32⟩ : BufTy).Contents (Elt F)),
    StableHlo.nullary main_c (constantI S_ 32 0#32),
    StableHlo.unary main_c main_v1 (broadcastInDim S600000 ![] bcast_S_S600000 : (⟨S_, .i32⟩ : BufTy).Contents (Elt F) → (⟨S600000, .i32⟩ : BufTy).Contents (Elt F)),
    StableHlo.binary main_arg8 main_v1 main_v2 (cmpi .slt : (⟨S600000, .i32⟩ : BufTy).Contents (Elt F) → (⟨S600000, .i32⟩ : BufTy).Contents (Elt F) → (⟨S600000, .i1⟩ : BufTy).Contents (Elt F)),
    StableHlo.nullary main_c_0 (constantI S_ 32 40000#32),
    StableHlo.unary main_c_0 main_v3 (broadcastInDim S600000 ![] bcast_S_S600000 : (⟨S_, .i32⟩ : BufTy).Contents (Elt F) → (⟨S600000, .i32⟩ : BufTy).Contents (Elt F)),
    StableHlo.binary main_arg8 main_v3 main_v4 (addi : (⟨S600000, .i32⟩ : BufTy).Contents (Elt F) → (⟨S600000, .i32⟩ : BufTy).Contents (Elt F) → (⟨S600000, .i32⟩ : BufTy).Contents (Elt F)),
    StableHlo.ternary main_v2 main_v4 main_arg8 main_v5 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v5 main_v6 (broadcastInDim S600000x1 ![0] bcast_S600000_S600000x1_0 : (⟨S600000, .i32⟩ : BufTy).Contents (Elt F) → (⟨S600000x1, .i32⟩ : BufTy).Contents (Elt F)),
    StableHlo.binary main_v0 main_v6 main_v7 ((fun x i => Host.gather gather_S40000x200_S600000x1_S600000x200_1_0_n_n_0_1_1200 x i) : (⟨S40000x200, .f32⟩ : BufTy).Contents (Elt F) → (⟨S600000x1, .i32⟩ : BufTy).Contents (Elt F) → (⟨S600000x200, .f32⟩ : BufTy).Contents (Elt F)),
    StableHlo.nullary main_c_1 (constantI S_ 32 0#32),
    StableHlo.unary main_c_1 main_v8 (broadcastInDim S600000 ![] bcast_S_S600000 : (⟨S_, .i32⟩ : BufTy).Contents (Elt F) → (⟨S600000, .i32⟩ : BufTy).Contents (Elt F)),
    StableHlo.binary main_arg10 main_v8 main_v9 (cmpi .slt : (⟨S600000, .i32⟩ : BufTy).Contents (Elt F) → (⟨S600000, .i32⟩ : BufTy).Contents (Elt F) → (⟨S600000, .i1⟩ : BufTy).Contents (Elt F)),
    StableHlo.nullary main_c_2 (constantI S_ 32 10#32),
    StableHlo.unary main_c_2 main_v10 (broadcastInDim S600000 ![] bcast_S_S600000 : (⟨S_, .i32⟩ : BufTy).Contents (Elt F) → (⟨S600000, .i32⟩ : BufTy).Contents (Elt F)),
    StableHlo.binary main_arg10 main_v10 main_v11 (addi : (⟨S600000, .i32⟩ : BufTy).Contents (Elt F) → (⟨S600000, .i32⟩ : BufTy).Contents (Elt F) → (⟨S600000, .i32⟩ : BufTy).Contents (Elt F)),
    StableHlo.ternary main_v9 main_v11 main_arg10 main_v12 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    StableHlo.unary main_v12 main_v13 (broadcastInDim S600000x1 ![0] bcast_S600000_S600000x1_0 : (⟨S600000, .i32⟩ : BufTy).Contents (Elt F) → (⟨S600000x1, .i32⟩ : BufTy).Contents (Elt F)),
    StableHlo.binary main_arg4 main_v13 main_v14 ((fun x i => Host.gather gather_S10x200_S600000x1_S600000x200_1_0_n_n_0_1_1200 x i) : (⟨S10x200, .f32⟩ : BufTy).Contents (Elt F) → (⟨S600000x1, .i32⟩ : BufTy).Contents (Elt F) → (⟨S600000x200, .f32⟩ : BufTy).Contents (Elt F)),
    StableHlo.binary main_v7 main_v14 main_v15 (mulf : (⟨S600000x200, .f32⟩ : BufTy).Contents (Elt F) → (⟨S600000x200, .f32⟩ : BufTy).Contents (Elt F) → (⟨S600000x200, .f32⟩ : BufTy).Contents (Elt F)),
    StableHlo.nullary main_cst (constant S_ .f32 0x00000000#32),
    StableHlo.unary main_cst main_v16 (broadcastInDim S40000x200 ![] bcast_S_S40000x200 : (⟨S_, .f32⟩ : BufTy).Contents (Elt F) → (⟨S40000x200, .f32⟩ : BufTy).Contents (Elt F)),
    StableHlo.unary main_arg9 main_v17 (broadcastInDim S600000x1 ![0] bcast_S600000_S600000x1_0 : (⟨S600000, .i32⟩ : BufTy).Contents (Elt F) → (⟨S600000x1, .i32⟩ : BufTy).Contents (Elt F)),
    StableHlo.ternary main_v16 main_v17 main_v15 main_v18 ((fun x i u => Host.scatterAdd scatter_S40000x200_S600000x1_S600000x200_1_0_0_1 x i u) : (⟨S40000x200, .f32⟩ : BufTy).Contents (Elt F) → (⟨S600000x1, .i32⟩ : BufTy).Contents (Elt F) → (⟨S600000x200, .f32⟩ : BufTy).Contents (Elt F) → (⟨S40000x200, .f32⟩ : BufTy).Contents (Elt F)),
    StableHlo.unary main_arg7 main_v19 (broadcastInDim S40000x200 ![0, 1] bcast_S40000x1_S40000x200_0_1 : (⟨S40000x1, .f32⟩ : BufTy).Contents (Elt F) → (⟨S40000x200, .f32⟩ : BufTy).Contents (Elt F)),
    StableHlo.binary main_v18 main_v19 main_v20 (mulf : (⟨S40000x200, .f32⟩ : BufTy).Contents (Elt F) → (⟨S40000x200, .f32⟩ : BufTy).Contents (Elt F) → (⟨S40000x200, .f32⟩ : BufTy).Contents (Elt F)),
    StableHlo.nullary main_cst_3 (constant S_ .f32 0x00000000#32),
    StableHlo.unary main_cst_3 main_v21 (broadcastInDim S40000x200 ![] bcast_S_S40000x200 : (⟨S_, .f32⟩ : BufTy).Contents (Elt F) → (⟨S40000x200, .f32⟩ : BufTy).Contents (Elt F)),
    StableHlo.binary main_v20 main_v21 main_v22 (cmpf .oge : (⟨S40000x200, .f32⟩ : BufTy).Contents (Elt F) → (⟨S40000x200, .f32⟩ : BufTy).Contents (Elt F) → (⟨S40000x200, .i1⟩ : BufTy).Contents (Elt F)),
    StableHlo.nullary main_cst_4 (constant S_ .f32 0x3E6AAAAB#32),
    StableHlo.unary main_cst_4 main_v23 (broadcastInDim S40000x200 ![] bcast_S_S40000x200 : (⟨S_, .f32⟩ : BufTy).Contents (Elt F) → (⟨S40000x200, .f32⟩ : BufTy).Contents (Elt F)),
    StableHlo.binary main_v23 main_v20 main_v24 (mulf : (⟨S40000x200, .f32⟩ : BufTy).Contents (Elt F) → (⟨S40000x200, .f32⟩ : BufTy).Contents (Elt F) → (⟨S40000x200, .f32⟩ : BufTy).Contents (Elt F)),
    StableHlo.TRef.ternary (.of main_v22 : StableHlo.TRef sig ⟨S40000x200, .i1⟩) (.of main_v20 : StableHlo.TRef sig ⟨S40000x200, .f32⟩) (.of main_v24 : StableHlo.TRef sig ⟨S40000x200, .f32⟩) main_call0.v0 select,
    StableHlo.unary main_v25 main_v26 ((extractStridedSlice S30000x200 ![0, 0] · slices_S40000x200_S30000x200_0_0) : (⟨S40000x200, .f32⟩ : BufTy).Contents (Elt F) → (⟨S30000x200, .f32⟩ : BufTy).Contents (Elt F)) ]

/-- The batch's entity column as row numbers, and those rows of the graph layer's result. -/
abbrev opsEnt : List (HloOp τ sig (Elt F)) :=
  [ StableHlo.unary main_arg11 main_v27 ((extractStridedSlice S4096x1 ![0, 0] · slices_S4096x4_S4096x1_0_0) : (⟨S4096x4, .i32⟩ : BufTy).Contents (Elt F) → (⟨S4096x1, .i32⟩ : BufTy).Contents (Elt F)),
    StableHlo.reshape main_v27 main_v28 rfl shapeCasts_S4096x1_S4096,
    StableHlo.nullary main_c_5 (constantI S_ 32 0#32),
    StableHlo.unary main_c_5 main_v29 (broadcastInDim S4096 ![] bcast_S_S4096 : (⟨S_, .i32⟩ : BufTy).Contents (Elt F) → (⟨S4096, .i32⟩ : BufTy).Contents (Elt F)),
    StableHlo.binary main_v28 main_v29 main_v30 (cmpi .slt : (⟨S4096, .i32⟩ : BufTy).Contents (Elt F) → (⟨S4096, .i32⟩ : BufTy).Contents (Elt F) → (⟨S4096, .i1⟩ : BufTy).Contents (Elt F)),
    StableHlo.nullary main_c_6 (constantI S_ 32 30000#32),
    StableHlo.unary main_c_6 main_v31 (broadcastInDim S4096 ![] bcast_S_S4096 : (⟨S_, .i32⟩ : BufTy).Contents (Elt F) → (⟨S4096, .i32⟩ : BufTy).Contents (Elt F)),
    StableHlo.binary main_v28 main_v31 main_v32 (addi : (⟨S4096, .i32⟩ : BufTy).Contents (Elt F) → (⟨S4096, .i32⟩ : BufTy).Contents (Elt F) → (⟨S4096, .i32⟩ : BufTy).Contents (Elt F)),
    StableHlo.ternary main_v30 main_v32 main_v28 main_v33 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v33 main_v34 (broadcastInDim S4096x1 ![0] bcast_S4096_S4096x1_0 : (⟨S4096, .i32⟩ : BufTy).Contents (Elt F) → (⟨S4096x1, .i32⟩ : BufTy).Contents (Elt F)),
    StableHlo.binary main_v26 main_v34 main_v35 ((fun x i => Host.gather gather_S30000x200_S4096x1_S4096x200_1_0_n_n_0_1_1200 x i) : (⟨S30000x200, .f32⟩ : BufTy).Contents (Elt F) → (⟨S4096x1, .i32⟩ : BufTy).Contents (Elt F) → (⟨S4096x200, .f32⟩ : BufTy).Contents (Elt F)) ]

/-- The batch's relation column as row numbers, and those rows of the relation table. -/
abbrev opsRel : List (HloOp τ sig (Elt F)) :=
  [ StableHlo.unary main_arg11 main_v36 ((extractStridedSlice S4096x1 ![0, 1] · slices_S4096x4_S4096x1_0_1) : (⟨S4096x4, .i32⟩ : BufTy).Contents (Elt F) → (⟨S4096x1, .i32⟩ : BufTy).Contents (Elt F)),
    StableHlo.reshape main_v36 main_v37 rfl shapeCasts_S4096x1_S4096,
    StableHlo.nullary main_c_7 (constantI S_ 32 0#32),
    StableHlo.unary main_c_7 main_v38 (broadcastInDim S4096 ![] bcast_S_S4096 : (⟨S_, .i32⟩ : BufTy).Contents (Elt F) → (⟨S4096, .i32⟩ : BufTy).Contents (Elt F)),
    StableHlo.binary main_v37 main_v38 main_v39 (cmpi .slt : (⟨S4096, .i32⟩ : BufTy).Contents (Elt F) → (⟨S4096, .i32⟩ : BufTy).Contents (Elt F) → (⟨S4096, .i1⟩ : BufTy).Contents (Elt F)),
    StableHlo.nullary main_c_8 (constantI S_ 32 230#32),
    StableHlo.unary main_c_8 main_v40 (broadcastInDim S4096 ![] bcast_S_S4096 : (⟨S_, .i32⟩ : BufTy).Contents (Elt F) → (⟨S4096, .i32⟩ : BufTy).Contents (Elt F)),
    StableHlo.binary main_v37 main_v40 main_v41 (addi : (⟨S4096, .i32⟩ : BufTy).Contents (Elt F) → (⟨S4096, .i32⟩ : BufTy).Contents (Elt F) → (⟨S4096, .i32⟩ : BufTy).Contents (Elt F)),
    StableHlo.ternary main_v39 main_v41 main_v37 main_v42 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v42 main_v43 (broadcastInDim S4096x1 ![0] bcast_S4096_S4096x1_0 : (⟨S4096, .i32⟩ : BufTy).Contents (Elt F) → (⟨S4096x1, .i32⟩ : BufTy).Contents (Elt F)),
    StableHlo.binary main_arg2 main_v43 main_v44 ((fun x i => Host.gather gather_S230x200_S4096x1_S4096x200_1_0_n_n_0_1_1200 x i) : (⟨S230x200, .f32⟩ : BufTy).Contents (Elt F) → (⟨S4096x1, .i32⟩ : BufTy).Contents (Elt F) → (⟨S4096x200, .f32⟩ : BufTy).Contents (Elt F)) ]

/-- The batch's time column, its floor division by 24 (the outlined `floor_divide`, seventeen operations, its
    closing select the outlined `_where_0`), the wrap, and those rows of the time table. -/
abbrev opsTim : List (HloOp τ sig (Elt F)) :=
  [ StableHlo.unary main_arg11 main_v45 ((extractStridedSlice S4096x1 ![0, 3] · slices_S4096x4_S4096x1_0_3) : (⟨S4096x4, .i32⟩ : BufTy).Contents (Elt F) → (⟨S4096x1, .i32⟩ : BufTy).Contents (Elt F)),
    StableHlo.reshape main_v45 main_v46 rfl shapeCasts_S4096x1_S4096,
    StableHlo.nullary main_c_9 (constantI S_ 32 24#32),
    StableHlo.TRef.unary (.of main_c_9 : StableHlo.TRef sig ⟨S_, .i32⟩) main_call1.v0 id,
    StableHlo.TRef.unary main_call1.v0 main_call1.v1 (broadcastInDim S4096 ![] bcast_S_S4096),
    StableHlo.TRef.binary (.of main_v46 : StableHlo.TRef sig ⟨S4096, .i32⟩) main_call1.v1 main_call1.v2 Host.divsi,
    StableHlo.TRef.unary (.of main_v46 : StableHlo.TRef sig ⟨S4096, .i32⟩) main_call1.v3 signi,
    StableHlo.TRef.unary main_call1.v0 main_call1.v4 signi,
    StableHlo.TRef.unary main_call1.v4 main_call1.v5 (broadcastInDim S4096 ![] bcast_S_S4096),
    StableHlo.TRef.binary main_call1.v3 main_call1.v5 main_call1.v6 (cmpi .ne),
    StableHlo.TRef.unary main_call1.v0 main_call1.v7 (broadcastInDim S4096 ![] bcast_S_S4096),
    StableHlo.TRef.binary (.of main_v46 : StableHlo.TRef sig ⟨S4096, .i32⟩) main_call1.v7 main_call1.v8 Host.remsi,
    StableHlo.TRef.nullary main_call1.c (constantI S_ 32 0#32),
    StableHlo.TRef.unary main_call1.c main_call1.v9 (broadcastInDim S4096 ![] bcast_S_S4096),
    StableHlo.TRef.binary main_call1.v8 main_call1.v9 main_call1.v10 (cmpi .ne),
    StableHlo.TRef.binary main_call1.v6 main_call1.v10 main_call1.v11 andi,
    StableHlo.TRef.nullary main_call1.c_0 (constantI S_ 32 1#32),
    StableHlo.TRef.unary main_call1.c_0 main_call1.v12 (broadcastInDim S4096 ![] bcast_S_S4096),
    StableHlo.TRef.binary main_call1.v2 main_call1.v12 main_call1.v13 subi,
    StableHlo.TRef.ternary main_call1.v11 main_call1.v13 main_call1.v2 main_call1.call0.v0 select,
    StableHlo.nullary main_c_10 (constantI S_ 32 0#32),
    StableHlo.unary main_c_10 main_v48 (broadcastInDim S4096 ![] bcast_S_S4096 : (⟨S_, .i32⟩ : BufTy).Contents (Elt F) → (⟨S4096, .i32⟩ : BufTy).Contents (Elt F)),
    StableHlo.binary main_v47 main_v48 main_v49 (cmpi .slt : (⟨S4096, .i32⟩ : BufTy).Contents (Elt F) → (⟨S4096, .i32⟩ : BufTy).Contents (Elt F) → (⟨S4096, .i1⟩ : BufTy).Contents (Elt F)),
    StableHlo.nullary main_c_11 (constantI S_ 32 365#32),
    StableHlo.unary main_c_11 main_v50 (broadcastInDim S4096 ![] bcast_S_S4096 : (⟨S_, .i32⟩ : BufTy).Contents (Elt F) → (⟨S4096, .i32⟩ : BufTy).Contents (Elt F)),
    StableHlo.binary main_v47 main_v50 main_v51 (addi : (⟨S4096, .i32⟩ : BufTy).Contents (Elt F) → (⟨S4096, .i32⟩ : BufTy).Contents (Elt F) → (⟨S4096, .i32⟩ : BufTy).Contents (Elt F)),
    StableHlo.ternary main_v49 main_v51 main_v47 main_v52 (select : (⟨S4096, .i1⟩ : BufTy).Contents (Elt F) → (⟨S4096, .i32⟩ : BufTy).Contents (Elt F) → (⟨S4096, .i32⟩ : BufTy).Contents (Elt F) → (⟨S4096, .i32⟩ : BufTy).Contents (Elt F)),
    StableHlo.unary main_v52 main_v53 (broadcastInDim S4096x1 ![0] bcast_S4096_S4096x1_0 : (⟨S4096, .i32⟩ : BufTy).Contents (Elt F) → (⟨S4096x1, .i32⟩ : BufTy).Contents (Elt F)),
    StableHlo.binary main_arg3 main_v53 main_v54 ((fun x i => Host.gather gather_S365x1_S4096x1_S4096x1_1_0_n_n_0_1_11 x i) : (⟨S365x1, .f32⟩ : BufTy).Contents (Elt F) → (⟨S4096x1, .i32⟩ : BufTy).Contents (Elt F) → (⟨S4096x1, .f32⟩ : BufTy).Contents (Elt F)) ]

/-- The decoder: tanh of the entity rows, the three-operand concatenation, the dense layer, relu (outlined,
    three operations), and the product against every entity row. -/
abbrev opsDec : List (HloOp τ sig (Elt F)) :=
  [ StableHlo.unary main_v35 main_v55 (Host.tanh : (⟨S4096x200, .f32⟩ : BufTy).Contents (Elt F) → (⟨S4096x200, .f32⟩ : BufTy).Contents (Elt F)),
    StableHlo.nary ![main_v55, main_v44, main_v54] main_v56 (fun u => concatenate S4096x401 1 [⟨S4096x200, u 0⟩, ⟨S4096x200, u 1⟩, ⟨S4096x1, u 2⟩] concatenates_S4096x200_S4096x200_S4096x1_S4096x401_d1),
    StableHlo.unary main_arg5 main_v57 ((transpose S401x200 [1, 0] · transposes_S200x401_S401x200_1_0) : (⟨S200x401, .f32⟩ : BufTy).Contents (Elt F) → (⟨S401x200, .f32⟩ : BufTy).Contents (Elt F)),
    StableHlo.binary main_v56 main_v57 main_v58 ((fun l r => Host.dotGeneral dot_S4096x401_S401x200_S4096x200_1_0_0_1_n_n none l r) : (⟨S4096x401, .f32⟩ : BufTy).Contents (Elt F) → (⟨S401x200, .f32⟩ : BufTy).Contents (Elt F) → (⟨S4096x200, .f32⟩ : BufTy).Contents (Elt F)),
    StableHlo.unary main_arg6 main_v59 (broadcastInDim S1x200 ![1] bcast_S200_S1x200_1 : (⟨S200, .f32⟩ : BufTy).Contents (Elt F) → (⟨S1x200, .f32⟩ : BufTy).Contents (Elt F)),
    StableHlo.unary main_v59 main_v60 (broadcastInDim S4096x200 ![0, 1] bcast_S1x200_S4096x200_0_1 : (⟨S1x200, .f32⟩ : BufTy).Contents (Elt F) → (⟨S4096x200, .f32⟩ : BufTy).Contents (Elt F)),
    StableHlo.binary main_v58 main_v60 main_v61 (addf : (⟨S4096x200, .f32⟩ : BufTy).Contents (Elt F) → (⟨S4096x200, .f32⟩ : BufTy).Contents (Elt F) → (⟨S4096x200, .f32⟩ : BufTy).Contents (Elt F)),
    StableHlo.TRef.nullary main_call2.cst (constant S_ .f32 0x00000000#32),
    StableHlo.TRef.unary main_call2.cst main_call2.v0 (broadcastInDim S4096x200 ![] bcast_S_S4096x200),
    StableHlo.TRef.binary (.of main_v61 : StableHlo.TRef sig ⟨S4096x200, .f32⟩) main_call2.v0 main_call2.v1 maximumf,
    StableHlo.unary main_v26 main_v63 ((transpose S200x30000 [1, 0] · transposes_S30000x200_S200x30000_1_0) : (⟨S30000x200, .f32⟩ : BufTy).Contents (Elt F) → (⟨S200x30000, .f32⟩ : BufTy).Contents (Elt F)),
    StableHlo.binary main_v62 main_v63 main_v64 ((fun l r => Host.dotGeneral dot_S4096x200_S200x30000_S4096x30000_1_0_0_1_n_n none l r) : (⟨S4096x200, .f32⟩ : BufTy).Contents (Elt F) → (⟨S200x30000, .f32⟩ : BufTy).Contents (Elt F) → (⟨S4096x30000, .f32⟩ : BufTy).Contents (Elt F)) ]

/-- @main's ninety-seven host operations in order, the three outlined functions written at their call sites. -/
abbrev ops : List (HloOp τ sig (Elt F)) := opsSem ++ opsEnt ++ opsRel ++ opsTim ++ opsDec

-- ninety-seven sequencing steps to re-associate, one level of recursion each
set_option maxRecDepth 4096 in
set_option maxHeartbeats 4000000 in
/-- @main is that straight line: its two windows and the outlined functions unfolded at their calls, both sides
    are one chain of host steps once sequencing is re-associated. -/
theorem main_eq (c : Dev nD) : main (F := F) c = seq ops := by
  simp only [ops, seq_append, main, main_part0, main_part1, fn_where.body, fn_floor_divide.body, fn_where_0.body,
    fn_relu.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

theorem opsSem_sub : (opsSem : List (HloOp τ sig (Elt F))).Forall fun op => op.bufs ⊆ tcRefs τ sig :=
  ⟨binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., unary_bufs_sub .., ternary_bufs_sub .., unary_bufs_sub .., binary_bufs_sub .., nullary_bufs_sub .., unary_bufs_sub .., binary_bufs_sub .., nullary_bufs_sub .., unary_bufs_sub .., binary_bufs_sub .., ternary_bufs_sub .., unary_bufs_sub ..⟩
theorem opsSem_fresh : ∀ op ∈ (opsSem : List (HloOp τ sig (Elt F))), op.fresh = ∅ := by
  intro _ h; (repeat (cases h with | head => rfl | tail _ h => ?_)); exact nomatch h

theorem opsEnt_sub : (opsEnt : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem opsEnt_fresh : ∀ op ∈ (opsEnt : List (HloOp τ sig (Elt F))), op.fresh = ∅ := by
  intro _ h; (repeat (cases h with | head => rfl | tail _ h => ?_)); exact nomatch h

theorem opsRel_sub : (opsRel : List (HloOp τ sig (Elt F))).Forall fun op => op.bufs ⊆ tcRefs τ sig :=
  ⟨unary_bufs_sub .., reshape_bufs_sub .., nullary_bufs_sub .., unary_bufs_sub .., binary_bufs_sub .., nullary_bufs_sub .., unary_bufs_sub .., binary_bufs_sub .., ternary_bufs_sub .., unary_bufs_sub .., binary_bufs_sub ..⟩
theorem opsRel_fresh : ∀ op ∈ (opsRel : List (HloOp τ sig (Elt F))), op.fresh = ∅ := by
  intro _ h; (repeat (cases h with | head => rfl | tail _ h => ?_)); exact nomatch h

theorem opsTim_sub : (opsTim : List (HloOp τ sig (Elt F))).Forall fun op => op.bufs ⊆ tcRefs τ sig :=
  ⟨unary_bufs_sub .., reshape_bufs_sub .., nullary_bufs_sub .., unary_bufs_sub .., unary_bufs_sub .., binary_bufs_sub .., unary_bufs_sub .., unary_bufs_sub .., unary_bufs_sub .., binary_bufs_sub .., unary_bufs_sub .., binary_bufs_sub .., nullary_bufs_sub .., unary_bufs_sub .., binary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub .., unary_bufs_sub .., binary_bufs_sub ..⟩
theorem opsTim_fresh : ∀ op ∈ (opsTim : List (HloOp τ sig (Elt F))), op.fresh = ∅ := by
  intro _ h; (repeat (cases h with | head => rfl | tail _ h => ?_)); exact nomatch h

theorem opsDec_sub : (opsDec : List (HloOp τ sig (Elt F))).Forall fun op => op.bufs ⊆ tcRefs τ sig :=
  ⟨unary_bufs_sub .., nary_bufs_sub .., unary_bufs_sub .., binary_bufs_sub .., unary_bufs_sub .., unary_bufs_sub .., binary_bufs_sub .., nullary_bufs_sub .., unary_bufs_sub .., binary_bufs_sub .., unary_bufs_sub .., binary_bufs_sub ..⟩
theorem opsDec_fresh : ∀ op ∈ (opsDec : List (HloOp τ sig (Elt F))), op.fresh = ∅ := by
  intro _ h; (repeat (cases h with | head => rfl | tail _ h => ?_)); exact nomatch h

/-! ## What each stretch writes

Every operation writes its one result buffer. A buffer outside a stretch's list is found after the stretch as it
was before it: that is how a later stretch reads the arguments, and the rows an earlier stretch produced. -/

/-- One result buffer, among a list that holds it. -/
theorem single_sub_of_mem {W : List (Ref sig .tc)} {y : Ref sig .tc} (h : y ∈ W) :
    ({Proc.devRef (τ := τ) .tc y} : Finset (DevRef τ sig)) ⊆ (W.map (Proc.devRef (τ := τ) .tc)).toFinset :=
  Finset.singleton_subset_iff.mpr (List.mem_toFinset.mpr (List.mem_map_of_mem h))

/-- The result buffers of `opsSem`, in order. -/
abbrev wSem : List (Ref sig .tc) :=
  [main_v0, main_c, main_v1, main_v2, main_c_0, main_v3, main_v4, main_v5, main_v6, main_v7,
   main_c_1, main_v8, main_v9, main_c_2, main_v10, main_v11, main_v12, main_v13, main_v14, main_v15,
   main_cst, main_v16, main_v17, main_v18, main_v19, main_v20, main_cst_3, main_v21, main_v22, main_cst_4,
   main_v23, main_v24, main_v25, main_v26]
theorem opsSem_writes : (opsSem : List (HloOp τ sig (Elt F))).Forall fun op =>
    op.writes ⊆ ((wSem).map (Proc.devRef (τ := τ) .tc)).toFinset :=
  ⟨single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide)⟩
/-- A buffer `opsSem` does not write keeps its contents across it. -/
theorem keepSem {r : Ref sig .tc} (hr : r ∉ wSem) (X : Valuation τ sig (Elt F)) :
    after opsSem X (Proc.devRef .tc r) = X (Proc.devRef .tc r) :=
  after_of_writes_sub opsSem X opsSem_writes hr

/-- The result buffers of `opsEnt`, in order. -/
abbrev wEnt : List (Ref sig .tc) :=
  [main_v27, main_v28, main_c_5, main_v29, main_v30, main_c_6, main_v31, main_v32, main_v33, main_v34,
   main_v35]
theorem opsEnt_writes : (opsEnt : List (HloOp τ sig (Elt F))).Forall fun op =>
    op.writes ⊆ ((wEnt).map (Proc.devRef (τ := τ) .tc)).toFinset :=
  ⟨single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide)⟩
/-- A buffer `opsEnt` does not write keeps its contents across it. -/
theorem keepEnt {r : Ref sig .tc} (hr : r ∉ wEnt) (X : Valuation τ sig (Elt F)) :
    after opsEnt X (Proc.devRef .tc r) = X (Proc.devRef .tc r) :=
  after_of_writes_sub opsEnt X opsEnt_writes hr

/-- The result buffers of `opsRel`, in order. -/
abbrev wRel : List (Ref sig .tc) :=
  [main_v36, main_v37, main_c_7, main_v38, main_v39, main_c_8, main_v40, main_v41, main_v42, main_v43,
   main_v44]
theorem opsRel_writes : (opsRel : List (HloOp τ sig (Elt F))).Forall fun op =>
    op.writes ⊆ ((wRel).map (Proc.devRef (τ := τ) .tc)).toFinset :=
  ⟨single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide)⟩
/-- A buffer `opsRel` does not write keeps its contents across it. -/
theorem keepRel {r : Ref sig .tc} (hr : r ∉ wRel) (X : Valuation τ sig (Elt F)) :
    after opsRel X (Proc.devRef .tc r) = X (Proc.devRef .tc r) :=
  after_of_writes_sub opsRel X opsRel_writes hr

/-- The result buffers of `opsTim`, in order. -/
abbrev wTim : List (Ref sig .tc) :=
  [main_v45, main_v46, main_c_9, main_call1_v0, main_call1_v1, main_call1_v2, main_call1_v3, main_call1_v4, main_call1_v5, main_call1_v6,
   main_call1_v7, main_call1_v8, main_call1_c, main_call1_v9, main_call1_v10, main_call1_v11, main_call1_c_0, main_call1_v12, main_call1_v13, main_v47,
   main_c_10, main_v48, main_v49, main_c_11, main_v50, main_v51, main_v52, main_v53, main_v54]
theorem opsTim_writes : (opsTim : List (HloOp τ sig (Elt F))).Forall fun op =>
    op.writes ⊆ ((wTim).map (Proc.devRef (τ := τ) .tc)).toFinset :=
  ⟨single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide)⟩
/-- A buffer `opsTim` does not write keeps its contents across it. -/
theorem keepTim {r : Ref sig .tc} (hr : r ∉ wTim) (X : Valuation τ sig (Elt F)) :
    after opsTim X (Proc.devRef .tc r) = X (Proc.devRef .tc r) :=
  after_of_writes_sub opsTim X opsTim_writes hr

/-- The result buffers of `opsDec`, in order. -/
abbrev wDec : List (Ref sig .tc) :=
  [main_v55, main_v56, main_v57, main_v58, main_v59, main_v60, main_v61, main_call2_cst, main_call2_v0, main_v62,
   main_v63, main_v64]
theorem opsDec_writes : (opsDec : List (HloOp τ sig (Elt F))).Forall fun op =>
    op.writes ⊆ ((wDec).map (Proc.devRef (τ := τ) .tc)).toFinset :=
  ⟨single_sub_of_mem (by decide), single_sub_of_mem (by decide), single_sub_of_mem (by decide), single_sub_of_mem (by decide),
   single_sub_of_mem (by decide), single_sub_of_mem (by decide), single_sub_of_mem (by decide), single_sub_of_mem (by decide),
   single_sub_of_mem (by decide), single_sub_of_mem (by decide), single_sub_of_mem (by decide), single_sub_of_mem (by decide)⟩
/-- A buffer `opsDec` does not write keeps its contents across it. -/
theorem keepDec {r : Ref sig .tc} (hr : r ∉ wDec) (X : Valuation τ sig (Elt F)) :
    after opsDec X (Proc.devRef .tc r) = X (Proc.devRef .tc r) :=
  after_of_writes_sub opsDec X opsDec_writes hr

/-! ## What each stretch computes

Over any contents `X` of the buffers before the stretch: the fold of the stretch's operations, read at the stretch's
last result, is the corresponding function of `X` at the buffers the stretch reads. The fold unrolls, each operation's
result is its function at its own buffer and what was there at any other, and what is left is the same composition of
the same functions on both sides. The gathers and the scatter-add are searches and sums over their operands' elements: the comparison never looks
inside them, so they are kept folded (the two products are the float family's own, opaque already). -/

attribute [local irreducible] Host.gather Host.scatterAdd

set_option maxRecDepth 16384 in
set_option maxHeartbeats 2000000 in
/-- The graph layer's entity rows. -/
theorem sem_eq (X : Valuation τ sig (Elt F)) :
    after opsSem X (Proc.devRef .tc main_v26)
      = RefVal.sem (X (Proc.devRef .tc main_arg0)) (X (Proc.devRef .tc main_arg1)) (X (Proc.devRef .tc main_arg4)) (X (Proc.devRef .tc main_arg7))
          (X (Proc.devRef .tc main_arg8)) (X (Proc.devRef .tc main_arg9)) (X (Proc.devRef .tc main_arg10)) := by
  after_results_simp <;> (try simp only [TRef.ofBuf, TRef.toBuf, cast_eq]) <;> rfl

set_option maxRecDepth 16384 in
set_option maxHeartbeats 2000000 in
/-- The batch's entity rows, of the rows found at `main_v26`. -/
theorem ent_eq (X : Valuation τ sig (Elt F)) :
    after opsEnt X (Proc.devRef .tc main_v35) = RefVal.ent (X (Proc.devRef .tc main_v26)) (X (Proc.devRef .tc main_arg11)) := by
  after_results_simp <;> (try simp only [TRef.ofBuf, TRef.toBuf, cast_eq]) <;> rfl

set_option maxRecDepth 16384 in
set_option maxHeartbeats 2000000 in
/-- The batch's relation rows. -/
theorem rel_eq (X : Valuation τ sig (Elt F)) :
    after opsRel X (Proc.devRef .tc main_v44) = RefVal.rel (X (Proc.devRef .tc main_arg2)) (X (Proc.devRef .tc main_arg11)) := by
  after_results_simp <;> (try simp only [TRef.ofBuf, TRef.toBuf, cast_eq]) <;> rfl

set_option maxRecDepth 16384 in
set_option maxHeartbeats 2000000 in
/-- The batch's time rows. -/
theorem tim_eq (X : Valuation τ sig (Elt F)) :
    after opsTim X (Proc.devRef .tc main_v54) = RefVal.tim (X (Proc.devRef .tc main_arg3)) (X (Proc.devRef .tc main_arg11)) := by
  after_results_simp <;> (try simp only [TRef.ofBuf, TRef.toBuf, cast_eq]) <;> rfl

set_option maxRecDepth 16384 in
set_option maxHeartbeats 2000000 in
/-- The decoder, of the rows found at `main_v26`, `main_v35`, `main_v44`, `main_v54`. The concatenation's three
    operands are read each at its own buffer (the three-reference result lemma), so the tanh under the first is
    reached like any other operand. -/
theorem dec_eq (X : Valuation τ sig (Elt F)) :
    after opsDec X (Proc.devRef .tc main_v64)
      = RefVal.tail (X (Proc.devRef .tc main_v26)) (X (Proc.devRef .tc main_v35)) (X (Proc.devRef .tc main_v44)) (X (Proc.devRef .tc main_v54))
          (X (Proc.devRef .tc main_arg5)) (X (Proc.devRef .tc main_arg6)) := by
  simp (disch := decide) only [after_cons, after_nil,
    nullary_result', unary_result', binary_result', nary3_result',
    nullary_result_ne', unary_result_ne', binary_result_ne', nary_result_ne']
  (try simp only [TRef.ofBuf, TRef.toBuf, cast_eq]) <;> rfl

/-! ## The whole line -/

/-- A fact of every operation of each of five lists is a fact of every operation of the five in a row. -/
theorem forall_mem_append₅ {α : Type} {p : α → Prop} {a b c d e : List α} (ha : ∀ x ∈ a, p x) (hb : ∀ x ∈ b, p x)
    (hc : ∀ x ∈ c, p x) (hd : ∀ x ∈ d, p x) (he : ∀ x ∈ e, p x) : ∀ x ∈ a ++ b ++ c ++ d ++ e, p x := by
  intro x h
  rcases List.mem_append.mp h with h | h
  · rcases List.mem_append.mp h with h | h
    · rcases List.mem_append.mp h with h | h
      · rcases List.mem_append.mp h with h | h
        · exact ha x h
        · exact hb x h
      · exact hc x h
    · exact hd x h
  · exact he x h

theorem ops_sub : (ops : List (HloOp τ sig (Elt F))).Forall fun op => op.bufs ⊆ tcRefs τ sig :=
  List.forall_iff_forall_mem.mpr (forall_mem_append₅ (List.forall_iff_forall_mem.mp opsSem_sub)
    (List.forall_iff_forall_mem.mp opsEnt_sub) (List.forall_iff_forall_mem.mp opsRel_sub)
    (List.forall_iff_forall_mem.mp opsTim_sub) (List.forall_iff_forall_mem.mp opsDec_sub))

theorem ops_fresh : ∀ op ∈ (ops : List (HloOp τ sig (Elt F))), op.fresh = ∅ :=
  forall_mem_append₅ opsSem_fresh opsEnt_fresh opsRel_fresh opsTim_fresh opsDec_fresh

/-- A buffer none of the five stretches writes — each argument is one — is unchanged by the whole line. -/
theorem keep_ops {r : Ref sig .tc} (h₁ : r ∉ wSem) (h₂ : r ∉ wEnt) (h₃ : r ∉ wRel) (h₄ : r ∉ wTim) (h₅ : r ∉ wDec)
    (V : Valuation τ sig (Elt F)) : after ops V (Proc.devRef .tc r) = V (Proc.devRef .tc r) := by
  simp only [ops, after_append]
  rw [keepDec h₅, keepTim h₄, keepRel h₃, keepEnt h₂, keepSem h₁]

/-- The result buffer after the whole line, stage by stage from the last: the decoder reads the four row blocks and
    its two weights; each block is its stretch's function of what that stretch found; what a stretch found at a
    buffer no earlier stretch writes is what the line started from. -/
theorem out_eq (V : Valuation τ sig (Elt F)) :
    after ops V (Proc.devRef .tc main_v64)
      = RefVal.out (V (Proc.devRef .tc main_arg0)) (V (Proc.devRef .tc main_arg1)) (V (Proc.devRef .tc main_arg2)) (V (Proc.devRef .tc main_arg3)) (V (Proc.devRef .tc main_arg4)) (V (Proc.devRef .tc main_arg5))
          (V (Proc.devRef .tc main_arg6)) (V (Proc.devRef .tc main_arg7)) (V (Proc.devRef .tc main_arg8)) (V (Proc.devRef .tc main_arg9)) (V (Proc.devRef .tc main_arg10)) (V (Proc.devRef .tc main_arg11)) := by
  simp only [ops, after_append]
  rw [dec_eq, tim_eq,
    keepTim (r := main_v26) (by decide), keepTim (r := main_v35) (by decide), keepTim (r := main_v44) (by decide), keepTim (r := main_arg5) (by decide), keepTim (r := main_arg6) (by decide),
    rel_eq,
    keepRel (r := main_v26) (by decide), keepRel (r := main_v35) (by decide), keepRel (r := main_arg3) (by decide), keepRel (r := main_arg11) (by decide), keepRel (r := main_arg5) (by decide), keepRel (r := main_arg6) (by decide),
    ent_eq,
    keepEnt (r := main_v26) (by decide), keepEnt (r := main_arg2) (by decide), keepEnt (r := main_arg3) (by decide), keepEnt (r := main_arg11) (by decide), keepEnt (r := main_arg5) (by decide), keepEnt (r := main_arg6) (by decide),
    sem_eq,
    keepSem (r := main_arg2) (by decide), keepSem (r := main_arg3) (by decide), keepSem (r := main_arg11) (by decide), keepSem (r := main_arg5) (by decide), keepSem (r := main_arg6) (by decide)]
  rfl

/-- On every device, for any float values, from any memory with zero counters: every weakly fair execution of
    @main terminates with the result buffer at `RefVal.out` of the arguments' launch contents and the arguments
    unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v64)
        = RefVal.out (m ((c.tc : Thread nD τ).loc main_arg0)) (m ((c.tc : Thread nD τ).loc main_arg1)) (m ((c.tc : Thread nD τ).loc main_arg2)) (m ((c.tc : Thread nD τ).loc main_arg3))
            (m ((c.tc : Thread nD τ).loc main_arg4)) (m ((c.tc : Thread nD τ).loc main_arg5)) (m ((c.tc : Thread nD τ).loc main_arg6)) (m ((c.tc : Thread nD τ).loc main_arg7))
            (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v64).trans (out_eq _),
      (h c main_arg0).trans (keep_ops (by decide) (by decide) (by decide) (by decide) (by decide) _),
      (h c main_arg1).trans (keep_ops (by decide) (by decide) (by decide) (by decide) (by decide) _),
      (h c main_arg2).trans (keep_ops (by decide) (by decide) (by decide) (by decide) (by decide) _),
      (h c main_arg3).trans (keep_ops (by decide) (by decide) (by decide) (by decide) (by decide) _),
      (h c main_arg4).trans (keep_ops (by decide) (by decide) (by decide) (by decide) (by decide) _),
      (h c main_arg5).trans (keep_ops (by decide) (by decide) (by decide) (by decide) (by decide) _),
      (h c main_arg6).trans (keep_ops (by decide) (by decide) (by decide) (by decide) (by decide) _),
      (h c main_arg7).trans (keep_ops (by decide) (by decide) (by decide) (by decide) (by decide) _),
      (h c main_arg8).trans (keep_ops (by decide) (by decide) (by decide) (by decide) (by decide) _),
      (h c main_arg9).trans (keep_ops (by decide) (by decide) (by decide) (by decide) (by decide) _),
      (h c main_arg10).trans (keep_ops (by decide) (by decide) (by decide) (by decide) (by decide) _),
      (h c main_arg11).trans (keep_ops (by decide) (by decide) (by decide) (by decide) (by decide) _)⟩)
    (run_seq scopedRefs_eq scopedSems_eq defs main (fun _ => ops) main_eq (fun _ => ops_sub) m ρ (fun _ => ops_fresh))

end Cert.ReferenceIdeal.RefRun

end
-- ==== Proof.lean ====
/-
  The certificate: the Pallas decode-and-project kernel of the graph model against its jnp reference.

  Both programs run the same graph layer and the same three lookups on the host (the same operations on the same
  literals), so the entity rows `sem`, and the batch's entity, relation and time rows, are one function of the
  arguments on both sides. The reference then computes relu ([tanh ent | rel | tim] · dec_Wᵀ + dec_b) · semᵀ with two
  host matrix products. The kernel computes the hidden layer once per block of 1024 batch rows, at the first of the
  block's sixteen column tiles, keeps it in a scratch buffer, and multiplies it at every tile with 1920 columns of semᵀ
  padded with 720 zero columns; the program then drops the padding. Over the extended reals the bf16 casts are the
  identity and a matrix product is the plain sum over the contracted axis, so every output tile is the restriction of
  the reference's own double sum: the two results are equal index by index, with no use of finiteness.

  The three frames: the kernel program's two are generated; the reference's is its run with the result dropped. The
  ideal pass rewrote nothing, so `preserves` is trivial.
-/
import proofs.«128595_j18803366822339_1_alg».proof.Defs
import proofs.«128595_j18803366822339_1_alg».proof.Proof.Gen.Kernel
import proofs.«128595_j18803366822339_1_alg».proof.Proof.Gen.Kernel.Frame
import proofs.«128595_j18803366822339_1_alg».proof.Proof.Gen.KernelIdeal
import proofs.«128595_j18803366822339_1_alg».proof.Proof.Gen.KernelIdeal.Frame
import proofs.«128595_j18803366822339_1_alg».proof.Proof.Gen.ReferenceIdeal
import proofs.«128595_j18803366822339_1_alg».proof.Proof.Gen.Pre_finite_inputs
import proofs.«128595_j18803366822339_1_alg».proof.Proof.KRun
import proofs.«128595_j18803366822339_1_alg».proof.Proof.RefRun
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.RefRun.run (F := Ideal) m ρ)

theorem preserves : Cert.preserves_Kernel_KernelIdeal := trivial

/-- Both runs end at the reference's function `RefVal.out` of their arguments, and the arguments agree. -/
theorem algebraic : Cert.algebraic_KernelIdeal_ReferenceIdeal := by
  intro m ρ m' ρ' _ hagree
  refine ⟨fun c => Cert.KernelIdeal.KVal.outK m c, Cert.KernelIdeal.KVal.run m ρ, ?_⟩
  refine (θ_run Cert.ReferenceIdeal.defs _ _).mono (fun _ h c => ⟨(h c).1.trans ?_, (h c).2⟩)
    (Cert.ReferenceIdeal.RefRun.run (F := Ideal) m' ρ')
  obtain ⟨h0, h1, h2, h3, h4, h5, h6, h7, h8, h9, h10, h11⟩ := hagree c
  rw [h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
